-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x1024x1024 : Shape := ⟨4, ![8, 4, 1024, 1024]⟩
abbrev S8x1024x1024 : Shape := ⟨3, ![8, 1024, 1024]⟩
abbrev S32x1024x1024 : Shape := ⟨3, ![32, 1024, 1024]⟩
abbrev S32 : Shape := ⟨1, ![32]⟩
abbrev S_ : Shape := ⟨0, ![]⟩

class Facts : Prop where
  bcast_S_S8x4x1024x1024 : S_.BroadcastsInDim S8x4x1024x1024 (![] : Fin 0 → Fin S8x4x1024x1024.rank)
  reducesTo_S8x4x1024x1024_S_d0_1_2_3 : S8x4x1024x1024.ReducesTo [0, 1, 2, 3] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg3 : IVec S32 32) (main_arg4 : IVec S32 32) (main_v13 : IVec S_ 1) (main_v15 : IVec S32 1) (main_c_5 : IVec S_ 32) : IVec S_ 1 :=
  let main_v16 : IVec S32 32 := broadcastInDim S32 ![] bcast_S_S32 main_c_5
  let main_v17 : IVec S32 1 := cmpi .slt main_arg3 main_v16
  let main_v18 : IVec S32 1 := andi main_v15 main_v17
  let main_c_6 : IVec S_ 1 := constantI S_ 1 1#1
  let main_v19 : IVec S_ 1 := (fun x v => Host.reduce IntOp.andi x v reducesTo_S32_S_d0 h_S_) main_v18 main_c_6
  let main_v20 : IVec S_ 1 := andi main_v13 main_v19
  let main_c_7 : IVec S_ 32 := constantI S_ 32 0#32
  let main_v21 : IVec S32 32 := broadcastInDim S32 ![] bcast_S_S32 main_c_7
  let main_v22 : IVec S32 1 := cmpi .sge main_arg4 main_v21
  let main_c_8 : IVec S_ 32 := constantI S_ 32 8#32
  let main_v23 : IVec S32 32 := broadcastInDim S32 ![] bcast_S_S32 main_c_8
  let main_v24 : IVec S32 1 := cmpi .slt main_arg4 main_v23
  let main_v25 : IVec S32 1 := andi main_v22 main_v24
  let main_c_9 : IVec S_ 1 := constantI S_ 1 1#1
  let main_v26 : IVec S_ 1 := (fun x v => Host.reduce IntOp.andi x v reducesTo_S32_S_d0 h_S_) main_v25 main_c_9
  let main_v27 : IVec S_ 1 := andi main_v20 main_v26
  main_v27

def fn {F : FTy → Type} [FloatOps F] (main_arg0 : FVec F S8x4x1024x1024 .f32) (main_arg1 : FVec F S8x1024x1024 .f32) (main_arg2 : FVec F S32x1024x1024 .f32) (main_arg3 : IVec S32 32) (main_arg4 : IVec S32 32) : IVec S_ 1 :=
  let main_v0 : FVec F S8x4x1024x1024 .f32 := Host.absf main_arg0
  let main_cst : FVec F S_ .f32 := constant S_ .f32 0x7F800000#32
  let main_v1 : FVec F S8x4x1024x1024 .f32 := broadcastInDim S8x4x1024x1024 ![] bcast_S_S8x4x1024x1024 main_cst
  let main_v2 : IVec S8x4x1024x1024 1 := cmpf .olt main_v0 main_v1
  let main_c : IVec S_ 1 := constantI S_ 1 1#1
  let main_v3 : IVec S_ 1 := (fun x v => Host.reduce IntOp.andi x v reducesTo_S8x4x1024x1024_S_d0_1_2_3 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_c_4 : IVec S_ 32 := constantI S_ 32 0#32
  let main_v14 : IVec S32 32 := broadcastInDim S32 ![] bcast_S_S32 main_c_4
  let main_v15 : IVec S32 1 := cmpi .sge main_arg3 main_v14
  let main_c_5 : IVec S_ 32 := constantI S_ 32 8#32
  fn_part1 (F := F) main_arg3 main_arg4 main_v13 main_v15 main_c_5
-- ==== Kernel.lean ====
abbrev S8x4x1024x1024 : Shape := ⟨4, ![8, 4, 1024, 1024]⟩
abbrev S8x1024x1024 : Shape := ⟨3, ![8, 1024, 1024]⟩
abbrev S32x1024x1024 : Shape := ⟨3, ![32, 1024, 1024]⟩
abbrev S32 : Shape := ⟨1, ![32]⟩
abbrev S8x4x32x1024 : Shape := ⟨4, ![8, 4, 32, 1024]⟩
abbrev S8x32x1024 : Shape := ⟨3, ![8, 32, 1024]⟩
abbrev S32x32x1024 : Shape := ⟨3, ![32, 32, 1024]⟩
abbrev S8x1x32x1024 : Shape := ⟨4, ![8, 1, 32, 1024]⟩
abbrev S1 : Shape := ⟨1, ![1]⟩
abbrev S1x4x32x1024 : Shape := ⟨4, ![1, 4, 32, 1024]⟩
abbrev S4x32x1024 : Shape := ⟨3, ![4, 32, 1024]⟩
abbrev S1x32x1024 : Shape := ⟨3, ![1, 32, 1024]⟩
abbrev S32x1024 : Shape := ⟨2, ![32, 1024]⟩

abbrev nBuf : Space → Nat
  | .hbm => 4
  | .vmem => 10
  | .smem => 2
  | _ => 0

abbrev bufTy : (tb : Table) → Fin (tcTables nBuf tb) → BufTy
  | .hbm, ⟨0, _⟩ => ⟨S8x4x1024x1024, .f32⟩
  | .hbm, ⟨1, _⟩ => ⟨S8x1024x1024, .f32⟩
  | .hbm, ⟨2, _⟩ => ⟨S32x1024x1024, .f32⟩
  | .hbm, ⟨3, _⟩ => ⟨S8x4x1024x1024, .f32⟩
  | .local _ .vmem, ⟨0, _⟩ => ⟨S8x4x32x1024, .f32⟩
  | .local _ .vmem, ⟨1, _⟩ => ⟨S8x4x32x1024, .f32⟩
  | .local _ .vmem, ⟨2, _⟩ => ⟨S8x32x1024, .f32⟩
  | .local _ .vmem, ⟨3, _⟩ => ⟨S8x32x1024, .f32⟩
  | .local _ .vmem, ⟨4, _⟩ => ⟨S32x32x1024, .f32⟩
  | .local _ .vmem, ⟨5, _⟩ => ⟨S32x32x1024, .f32⟩
  | .local _ .vmem, ⟨6, _⟩ => ⟨S8x4x32x1024, .f32⟩
  | .local _ .vmem, ⟨7, _⟩ => ⟨S8x4x32x1024, .f32⟩
  | .local _ .vmem, ⟨8, _⟩ => ⟨S8x4x32x1024, .f32⟩
  | .local _ .vmem, ⟨9, _⟩ => ⟨S8x4x32x1024, .f32⟩
  | .local _ .smem, ⟨0, _⟩ => ⟨S32, .i32⟩
  | .local _ .smem, ⟨1, _⟩ => ⟨S32, .i32⟩
  | _, _ => ⟨S8x4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (v12 : BitVec 32) : Fin 4 → Nat :=
  let v14 : Index := Scalar.indexCast v12
  let c0_16 : Index := 0#32
  let c0_17 : Index := 0#32
  let c0_18 : Index := 0#32
  ![v14.toNat, 0, 0, 0]

def k0_chk1 (v12 : BitVec 32) : Prop :=
  (∀ a, (k0_off1 v12) a + S1x4x32x1024.size a ≤ S8x4x32x1024.size a)
instance k0_chk1.dec : ∀ (v12 : BitVec 32), Decidable (k0_chk1 v12) := fun v12 => decidable_of_iff' _ (Iff.of_eq (k0_chk1.eq_1 v12))
theorem k0_off1_inb : ∀ (v12 : BitVec 32) (k0_hw1 : k0_chk1 v12), ∀ a, (k0_off1 v12) a + S1x4x32x1024.size a ≤ S8x4x32x1024.size a := fun v12 k0_hw1 => k0_hw1

def k0_off2 (v13 : BitVec 32) : Fin 4 → Nat :=
  let v19 : Index := Scalar.indexCast v13
  let c0_22 : Index := 0#32
  let c0_23 : Index := 0#32
  let c0_24 : Index := 0#32
  ![v19.toNat, 0, 0, 0]

def k0_chk2 (v13 : BitVec 32) : Prop :=
  (∀ a, (k0_off2 v13) a + S1x4x32x1024.size a ≤ S8x4x32x1024.size a)
instance k0_chk2.dec : ∀ (v13 : BitVec 32), Decidable (k0_chk2 v13) := fun v13 => decidable_of_iff' _ (Iff.of_eq (k0_chk2.eq_1 v13))
theorem k0_off2_inb : ∀ (v13 : BitVec 32) (k0_hw2 : k0_chk2 v13), ∀ a, (k0_off2 v13) a + S1x4x32x1024.size a ≤ S8x4x32x1024.size a := fun v13 k0_hw2 => k0_hw2

def k0_off3 (v30 : BitVec 32) : Fin 4 → Nat :=
  let v32 : Index := Scalar.indexCast v30
  let c0_29 : Index := 0#32
  let c0_30 : Index := 0#32
  let c0_31 : Index := 0#32
  ![v32.toNat, 0, 0, 0]

def k0_chk3 (v30 : BitVec 32) : Prop :=
  (∀ a, (k0_off3 v30) a + S1x4x32x1024.size a ≤ S8x4x32x1024.size a)
instance k0_chk3.dec : ∀ (v30 : BitVec 32), Decidable (k0_chk3 v30) := fun v30 => decidable_of_iff' _ (Iff.of_eq (k0_chk3.eq_1 v30))
theorem k0_off3_inb : ∀ (v30 : BitVec 32) (k0_hw3 : k0_chk3 v30), ∀ a, (k0_off3 v30) a + S1x4x32x1024.size a ≤ S8x4x32x1024.size a := fun v30 k0_hw3 => k0_hw3

def k0_off4 (v31 : BitVec 32) : Fin 4 → Nat :=
  let v37 : Index := Scalar.indexCast v31
  let c0_35 : Index := 0#32
  let c0_36 : Index := 0#32
  let c0_37 : Index := 0#32
  ![v37.toNat, 0, 0, 0]

def k0_chk4 (v31 : BitVec 32) : Prop :=
  (∀ a, (k0_off4 v31) a + S1x4x32x1024.size a ≤ S8x4x32x1024.size a)
instance k0_chk4.dec : ∀ (v31 : BitVec 32), Decidable (k0_chk4 v31) := fun v31 => decidable_of_iff' _ (Iff.of_eq (k0_chk4.eq_1 v31))
theorem k0_off4_inb : ∀ (v31 : BitVec 32) (k0_hw4 : k0_chk4 v31), ∀ a, (k0_off4 v31) a + S1x4x32x1024.size a ≤ S8x4x32x1024.size a := fun v31 k0_hw4 => k0_hw4

def k0_off5 (v48 : BitVec 32) : Fin 4 → Nat :=
  let v50 : Index := Scalar.indexCast v48
  let c0_42 : Index := 0#32
  let c0_43 : Index := 0#32
  let c0_44 : Index := 0#32
  ![v50.toNat, 0, 0, 0]

def k0_chk5 (v48 : BitVec 32) : Prop :=
  (∀ a, (k0_off5 v48) a + S1x4x32x1024.size a ≤ S8x4x32x1024.size a)
instance k0_chk5.dec : ∀ (v48 : BitVec 32), Decidable (k0_chk5 v48) := fun v48 => decidable_of_iff' _ (Iff.of_eq (k0_chk5.eq_1 v48))
theorem k0_off5_inb : ∀ (v48 : BitVec 32) (k0_hw5 : k0_chk5 v48), ∀ a, (k0_off5 v48) a + S1x4x32x1024.size a ≤ S8x4x32x1024.size a := fun v48 k0_hw5 => k0_hw5

def k0_off6 (v49 : BitVec 32) : Fin 4 → Nat :=
  let v55 : Index := Scalar.indexCast v49
  let c0_48 : Index := 0#32
  let c0_49 : Index := 0#32
  let c0_50 : Index := 0#32
  ![v55.toNat, 0, 0, 0]

def k0_chk6 (v49 : BitVec 32) : Prop :=
  (∀ a, (k0_off6 v49) a + S1x4x32x1024.size a ≤ S8x4x32x1024.size a)
instance k0_chk6.dec : ∀ (v49 : BitVec 32), Decidable (k0_chk6 v49) := fun v49 => decidable_of_iff' _ (Iff.of_eq (k0_chk6.eq_1 v49))
theorem k0_off6_inb : ∀ (v49 : BitVec 32) (k0_hw6 : k0_chk6 v49), ∀ a, (k0_off6 v49) a + S1x4x32x1024.size a ≤ S8x4x32x1024.size a := fun v49 k0_hw6 => k0_hw6

def k0_off7 (v66 : BitVec 32) : Fin 4 → Nat :=
  let v68 : Index := Scalar.indexCast v66
  let c0_55 : Index := 0#32
  let c0_56 : Index := 0#32
  let c0_57 : Index := 0#32
  ![v68.toNat, 0, 0, 0]

def k0_chk7 (v66 : BitVec 32) : Prop :=
  (∀ a, (k0_off7 v66) a + S1x4x32x1024.size a ≤ S8x4x32x1024.size a)
instance k0_chk7.dec : ∀ (v66 : BitVec 32), Decidable (k0_chk7 v66) := fun v66 => decidable_of_iff' _ (Iff.of_eq (k0_chk7.eq_1 v66))
theorem k0_off7_inb : ∀ (v66 : BitVec 32) (k0_hw7 : k0_chk7 v66), ∀ a, (k0_off7 v66) a + S1x4x32x1024.size a ≤ S8x4x32x1024.size a := fun v66 k0_hw7 => k0_hw7

def k0_off8 (v67 : BitVec 32) : Fin 4 → Nat :=
  let v73 : Index := Scalar.indexCast v67
  let c0_61 : Index := 0#32
  let c0_62 : Index := 0#32
  let c0_63 : Index := 0#32
  ![v73.toNat, 0, 0, 0]

def k0_chk8 (v67 : BitVec 32) : Prop :=
  (∀ a, (k0_off8 v67) a + S1x4x32x1024.size a ≤ S8x4x32x1024.size a)
instance k0_chk8.dec : ∀ (v67 : BitVec 32), Decidable (k0_chk8 v67) := fun v67 => decidable_of_iff' _ (Iff.of_eq (k0_chk8.eq_1 v67))
theorem k0_off8_inb : ∀ (v67 : BitVec 32) (k0_hw8 : k0_chk8 v67), ∀ a, (k0_off8 v67) a + S1x4x32x1024.size a ≤ S8x4x32x1024.size a := fun v67 k0_hw8 => k0_hw8

def k0_off9 (v84 : BitVec 32) : Fin 4 → Nat :=
  let v86 : Index := Scalar.indexCast v84
  let c0_68 : Index := 0#32
  let c0_69 : Index := 0#32
  let c0_70 : Index := 0#32
  ![v86.toNat, 0, 0, 0]

def k0_chk9 (v84 : BitVec 32) : Prop :=
  (∀ a, (k0_off9 v84) a + S1x4x32x1024.size a ≤ S8x4x32x1024.size a)
instance k0_chk9.dec : ∀ (v84 : BitVec 32), Decidable (k0_chk9 v84) := fun v84 => decidable_of_iff' _ (Iff.of_eq (k0_chk9.eq_1 v84))
theorem k0_off9_inb : ∀ (v84 : BitVec 32) (k0_hw9 : k0_chk9 v84), ∀ a, (k0_off9 v84) a + S1x4x32x1024.size a ≤ S8x4x32x1024.size a := fun v84 k0_hw9 => k0_hw9

def k0_off10 (v85 : BitVec 32) : Fin 4 → Nat :=
  let v91 : Index := Scalar.indexCast v85
  let c0_74 : Index := 0#32
  let c0_75 : Index := 0#32
  let c0_76 : Index := 0#32
  ![v91.toNat, 0, 0, 0]

def k0_chk10 (v85 : BitVec 32) : Prop :=
  (∀ a, (k0_off10 v85) a + S1x4x32x1024.size a ≤ S8x4x32x1024.size a)
instance k0_chk10.dec : ∀ (v85 : BitVec 32), Decidable (k0_chk10 v85) := fun v85 => decidable_of_iff' _ (Iff.of_eq (k0_chk10.eq_1 v85))
theorem k0_off10_inb : ∀ (v85 : BitVec 32) (k0_hw10 : k0_chk10 v85), ∀ a, (k0_off10 v85) a + S1x4x32x1024.size a ≤ S8x4x32x1024.size a := fun v85 k0_hw10 => k0_hw10

def k0_off11 (v102 : BitVec 32) : Fin 4 → Nat :=
  let v104 : Index := Scalar.indexCast v102
  let c0_81 : Index := 0#32
  let c0_82 : Index := 0#32
  let c0_83 : Index := 0#32
  ![v104.toNat, 0, 0, 0]

def k0_chk11 (v102 : BitVec 32) : Prop :=
  (∀ a, (k0_off11 v102) a + S1x4x32x1024.size a ≤ S8x4x32x1024.size a)
instance k0_chk11.dec : ∀ (v102 : BitVec 32), Decidable (k0_chk11 v102) := fun v102 => decidable_of_iff' _ (Iff.of_eq (k0_chk11.eq_1 v102))
theorem k0_off11_inb : ∀ (v102 : BitVec 32) (k0_hw11 : k0_chk11 v102), ∀ a, (k0_off11 v102) a + S1x4x32x1024.size a ≤ S8x4x32x1024.size a := fun v102 k0_hw11 => k0_hw11

def k0_off12 (v103 : BitVec 32) : Fin 4 → Nat :=
  let v109 : Index := Scalar.indexCast v103
  let c0_87 : Index := 0#32
  let c0_88 : Index := 0#32
  let c0_89 : Index := 0#32
  ![v109.toNat, 0, 0, 0]

def k0_chk12 (v103 : BitVec 32) : Prop :=
  (∀ a, (k0_off12 v103) a + S1x4x32x1024.size a ≤ S8x4x32x1024.size a)
instance k0_chk12.dec : ∀ (v103 : BitVec 32), Decidable (k0_chk12 v103) := fun v103 => decidable_of_iff' _ (Iff.of_eq (k0_chk12.eq_1 v103))
theorem k0_off12_inb : ∀ (v103 : BitVec 32) (k0_hw12 : k0_chk12 v103), ∀ a, (k0_off12 v103) a + S1x4x32x1024.size a ≤ S8x4x32x1024.size a := fun v103 k0_hw12 => k0_hw12

def k0_off13 (v120 : BitVec 32) : Fin 4 → Nat :=
  let v122 : Index := Scalar.indexCast v120
  let c0_94 : Index := 0#32
  let c0_95 : Index := 0#32
  let c0_96 : Index := 0#32
  ![v122.toNat, 0, 0, 0]

def k0_chk13 (v120 : BitVec 32) : Prop :=
  (∀ a, (k0_off13 v120) a + S1x4x32x1024.size a ≤ S8x4x32x1024.size a)
instance k0_chk13.dec : ∀ (v120 : BitVec 32), Decidable (k0_chk13 v120) := fun v120 => decidable_of_iff' _ (Iff.of_eq (k0_chk13.eq_1 v120))
theorem k0_off13_inb : ∀ (v120 : BitVec 32) (k0_hw13 : k0_chk13 v120), ∀ a, (k0_off13 v120) a + S1x4x32x1024.size a ≤ S8x4x32x1024.size a := fun v120 k0_hw13 => k0_hw13

def k0_off14 (v121 : BitVec 32) : Fin 4 → Nat :=
  let v127 : Index := Scalar.indexCast v121
  let c0_100 : Index := 0#32
  let c0_101 : Index := 0#32
  let c0_102 : Index := 0#32
  ![v127.toNat, 0, 0, 0]

def k0_chk14 (v121 : BitVec 32) : Prop :=
  (∀ a, (k0_off14 v121) a + S1x4x32x1024.size a ≤ S8x4x32x1024.size a)
instance k0_chk14.dec : ∀ (v121 : BitVec 32), Decidable (k0_chk14 v121) := fun v121 => decidable_of_iff' _ (Iff.of_eq (k0_chk14.eq_1 v121))
theorem k0_off14_inb : ∀ (v121 : BitVec 32) (k0_hw14 : k0_chk14 v121), ∀ a, (k0_off14 v121) a + S1x4x32x1024.size a ≤ S8x4x32x1024.size a := fun v121 k0_hw14 => k0_hw14

def k0_off15 (v138 : BitVec 32) : Fin 4 → Nat :=
  let v140 : Index := Scalar.indexCast v138
  let c0_107 : Index := 0#32
  let c0_108 : Index := 0#32
  let c0_109 : Index := 0#32
  ![v140.toNat, 0, 0, 0]

def k0_chk15 (v138 : BitVec 32) : Prop :=
  (∀ a, (k0_off15 v138) a + S1x4x32x1024.size a ≤ S8x4x32x1024.size a)
instance k0_chk15.dec : ∀ (v138 : BitVec 32), Decidable (k0_chk15 v138) := fun v138 => decidable_of_iff' _ (Iff.of_eq (k0_chk15.eq_1 v138))
theorem k0_off15_inb : ∀ (v138 : BitVec 32) (k0_hw15 : k0_chk15 v138), ∀ a, (k0_off15 v138) a + S1x4x32x1024.size a ≤ S8x4x32x1024.size a := fun v138 k0_hw15 => k0_hw15

def k0_off16 (v139 : BitVec 32) : Fin 4 → Nat :=
  let v145 : Index := Scalar.indexCast v139
  let c0_113 : Index := 0#32
  let c0_114 : Index := 0#32
  let c0_115 : Index := 0#32
  ![v145.toNat, 0, 0, 0]

def k0_chk16 (v139 : BitVec 32) : Prop :=
  (∀ a, (k0_off16 v139) a + S1x4x32x1024.size a ≤ S8x4x32x1024.size a)
instance k0_chk16.dec : ∀ (v139 : BitVec 32), Decidable (k0_chk16 v139) := fun v139 => decidable_of_iff' _ (Iff.of_eq (k0_chk16.eq_1 v139))
theorem k0_off16_inb : ∀ (v139 : BitVec 32) (k0_hw16 : k0_chk16 v139), ∀ a, (k0_off16 v139) a + S1x4x32x1024.size a ≤ S8x4x32x1024.size a := fun v139 k0_hw16 => k0_hw16

def k0_off17 (v156 : BitVec 32) : Fin 4 → Nat :=
  let v158 : Index := Scalar.indexCast v156
  let c0_120 : Index := 0#32
  let c0_121 : Index := 0#32
  let c0_122 : Index := 0#32
  ![v158.toNat, 0, 0, 0]

def k0_chk17 (v156 : BitVec 32) : Prop :=
  (∀ a, (k0_off17 v156) a + S1x4x32x1024.size a ≤ S8x4x32x1024.size a)
instance k0_chk17.dec : ∀ (v156 : BitVec 32), Decidable (k0_chk17 v156) := fun v156 => decidable_of_iff' _ (Iff.of_eq (k0_chk17.eq_1 v156))
theorem k0_off17_inb : ∀ (v156 : BitVec 32) (k0_hw17 : k0_chk17 v156), ∀ a, (k0_off17 v156) a + S1x4x32x1024.size a ≤ S8x4x32x1024.size a := fun v156 k0_hw17 => k0_hw17

def k0_off18 (v157 : BitVec 32) : Fin 4 → Nat :=
  let v163 : Index := Scalar.indexCast v157
  let c0_126 : Index := 0#32
  let c0_127 : Index := 0#32
  let c0_128 : Index := 0#32
  ![v163.toNat, 0, 0, 0]

def k0_chk18 (v157 : BitVec 32) : Prop :=
  (∀ a, (k0_off18 v157) a + S1x4x32x1024.size a ≤ S8x4x32x1024.size a)
instance k0_chk18.dec : ∀ (v157 : BitVec 32), Decidable (k0_chk18 v157) := fun v157 => decidable_of_iff' _ (Iff.of_eq (k0_chk18.eq_1 v157))
theorem k0_off18_inb : ∀ (v157 : BitVec 32) (k0_hw18 : k0_chk18 v157), ∀ a, (k0_off18 v157) a + S1x4x32x1024.size a ≤ S8x4x32x1024.size a := fun v157 k0_hw18 => k0_hw18

def k0_off19 (v174 : BitVec 32) : Fin 4 → Nat :=
  let v176 : Index := Scalar.indexCast v174
  let c0_133 : Index := 0#32
  let c0_134 : Index := 0#32
  let c0_135 : Index := 0#32
  ![v176.toNat, 0, 0, 0]

def k0_chk19 (v174 : BitVec 32) : Prop :=
  (∀ a, (k0_off19 v174) a + S1x4x32x1024.size a ≤ S8x4x32x1024.size a)
instance k0_chk19.dec : ∀ (v174 : BitVec 32), Decidable (k0_chk19 v174) := fun v174 => decidable_of_iff' _ (Iff.of_eq (k0_chk19.eq_1 v174))
theorem k0_off19_inb : ∀ (v174 : BitVec 32) (k0_hw19 : k0_chk19 v174), ∀ a, (k0_off19 v174) a + S1x4x32x1024.size a ≤ S8x4x32x1024.size a := fun v174 k0_hw19 => k0_hw19

def k0_off20 (v175 : BitVec 32) : Fin 4 → Nat :=
  let v181 : Index := Scalar.indexCast v175
  let c0_139 : Index := 0#32
  let c0_140 : Index := 0#32
  let c0_141 : Index := 0#32
  ![v181.toNat, 0, 0, 0]

def k0_chk20 (v175 : BitVec 32) : Prop :=
  (∀ a, (k0_off20 v175) a + S1x4x32x1024.size a ≤ S8x4x32x1024.size a)
instance k0_chk20.dec : ∀ (v175 : BitVec 32), Decidable (k0_chk20 v175) := fun v175 => decidable_of_iff' _ (Iff.of_eq (k0_chk20.eq_1 v175))
theorem k0_off20_inb : ∀ (v175 : BitVec 32) (k0_hw20 : k0_chk20 v175), ∀ a, (k0_off20 v175) a + S1x4x32x1024.size a ≤ S8x4x32x1024.size a := fun v175 k0_hw20 => k0_hw20

def k0_off21 (v192 : BitVec 32) : Fin 4 → Nat :=
  let v194 : Index := Scalar.indexCast v192
  let c0_146 : Index := 0#32
  let c0_147 : Index := 0#32
  let c0_148 : Index := 0#32
  ![v194.toNat, 0, 0, 0]

def k0_chk21 (v192 : BitVec 32) : Prop :=
  (∀ a, (k0_off21 v192) a + S1x4x32x1024.size a ≤ S8x4x32x1024.size a)
instance k0_chk21.dec : ∀ (v192 : BitVec 32), Decidable (k0_chk21 v192) := fun v192 => decidable_of_iff' _ (Iff.of_eq (k0_chk21.eq_1 v192))
theorem k0_off21_inb : ∀ (v192 : BitVec 32) (k0_hw21 : k0_chk21 v192), ∀ a, (k0_off21 v192) a + S1x4x32x1024.size a ≤ S8x4x32x1024.size a := fun v192 k0_hw21 => k0_hw21

def k0_off22 (v193 : BitVec 32) : Fin 4 → Nat :=
  let v199 : Index := Scalar.indexCast v193
  let c0_152 : Index := 0#32
  let c0_153 : Index := 0#32
  let c0_154 : Index := 0#32
  ![v199.toNat, 0, 0, 0]

def k0_chk22 (v193 : BitVec 32) : Prop :=
  (∀ a, (k0_off22 v193) a + S1x4x32x1024.size a ≤ S8x4x32x1024.size a)
instance k0_chk22.dec : ∀ (v193 : BitVec 32), Decidable (k0_chk22 v193) := fun v193 => decidable_of_iff' _ (Iff.of_eq (k0_chk22.eq_1 v193))
theorem k0_off22_inb : ∀ (v193 : BitVec 32) (k0_hw22 : k0_chk22 v193), ∀ a, (k0_off22 v193) a + S1x4x32x1024.size a ≤ S8x4x32x1024.size a := fun v193 k0_hw22 => k0_hw22

def k0_off23 (v210 : BitVec 32) : Fin 4 → Nat :=
  let v212 : Index := Scalar.indexCast v210
  let c0_159 : Index := 0#32
  let c0_160 : Index := 0#32
  let c0_161 : Index := 0#32
  ![v212.toNat, 0, 0, 0]

def k0_chk23 (v210 : BitVec 32) : Prop :=
  (∀ a, (k0_off23 v210) a + S1x4x32x1024.size a ≤ S8x4x32x1024.size a)
instance k0_chk23.dec : ∀ (v210 : BitVec 32), Decidable (k0_chk23 v210) := fun v210 => decidable_of_iff' _ (Iff.of_eq (k0_chk23.eq_1 v210))
theorem k0_off23_inb : ∀ (v210 : BitVec 32) (k0_hw23 : k0_chk23 v210), ∀ a, (k0_off23 v210) a + S1x4x32x1024.size a ≤ S8x4x32x1024.size a := fun v210 k0_hw23 => k0_hw23

def k0_off24 (v211 : BitVec 32) : Fin 4 → Nat :=
  let v217 : Index := Scalar.indexCast v211
  let c0_165 : Index := 0#32
  let c0_166 : Index := 0#32
  let c0_167 : Index := 0#32
  ![v217.toNat, 0, 0, 0]

def k0_chk24 (v211 : BitVec 32) : Prop :=
  (∀ a, (k0_off24 v211) a + S1x4x32x1024.size a ≤ S8x4x32x1024.size a)
instance k0_chk24.dec : ∀ (v211 : BitVec 32), Decidable (k0_chk24 v211) := fun v211 => decidable_of_iff' _ (Iff.of_eq (k0_chk24.eq_1 v211))
theorem k0_off24_inb : ∀ (v211 : BitVec 32) (k0_hw24 : k0_chk24 v211), ∀ a, (k0_off24 v211) a + S1x4x32x1024.size a ≤ S8x4x32x1024.size a := fun v211 k0_hw24 => k0_hw24

def k0_off25 (v228 : BitVec 32) : Fin 4 → Nat :=
  let v230 : Index := Scalar.indexCast v228
  let c0_172 : Index := 0#32
  let c0_173 : Index := 0#32
  let c0_174 : Index := 0#32
  ![v230.toNat, 0, 0, 0]

def k0_chk25 (v228 : BitVec 32) : Prop :=
  (∀ a, (k0_off25 v228) a + S1x4x32x1024.size a ≤ S8x4x32x1024.size a)
instance k0_chk25.dec : ∀ (v228 : BitVec 32), Decidable (k0_chk25 v228) := fun v228 => decidable_of_iff' _ (Iff.of_eq (k0_chk25.eq_1 v228))
theorem k0_off25_inb : ∀ (v228 : BitVec 32) (k0_hw25 : k0_chk25 v228), ∀ a, (k0_off25 v228) a + S1x4x32x1024.size a ≤ S8x4x32x1024.size a := fun v228 k0_hw25 => k0_hw25

def k0_off26 (v229 : BitVec 32) : Fin 4 → Nat :=
  let v235 : Index := Scalar.indexCast v229
  let c0_178 : Index := 0#32
  let c0_179 : Index := 0#32
  let c0_180 : Index := 0#32
  ![v235.toNat, 0, 0, 0]

def k0_chk26 (v229 : BitVec 32) : Prop :=
  (∀ a, (k0_off26 v229) a + S1x4x32x1024.size a ≤ S8x4x32x1024.size a)
instance k0_chk26.dec : ∀ (v229 : BitVec 32), Decidable (k0_chk26 v229) := fun v229 => decidable_of_iff' _ (Iff.of_eq (k0_chk26.eq_1 v229))
theorem k0_off26_inb : ∀ (v229 : BitVec 32) (k0_hw26 : k0_chk26 v229), ∀ a, (k0_off26 v229) a + S1x4x32x1024.size a ≤ S8x4x32x1024.size a := fun v229 k0_hw26 => k0_hw26

def k0_off27 (v246 : BitVec 32) : Fin 4 → Nat :=
  let v248 : Index := Scalar.indexCast v246
  let c0_185 : Index := 0#32
  let c0_186 : Index := 0#32
  let c0_187 : Index := 0#32
  ![v248.toNat, 0, 0, 0]

def k0_chk27 (v246 : BitVec 32) : Prop :=
  (∀ a, (k0_off27 v246) a + S1x4x32x1024.size a ≤ S8x4x32x1024.size a)
instance k0_chk27.dec : ∀ (v246 : BitVec 32), Decidable (k0_chk27 v246) := fun v246 => decidable_of_iff' _ (Iff.of_eq (k0_chk27.eq_1 v246))
theorem k0_off27_inb : ∀ (v246 : BitVec 32) (k0_hw27 : k0_chk27 v246), ∀ a, (k0_off27 v246) a + S1x4x32x1024.size a ≤ S8x4x32x1024.size a := fun v246 k0_hw27 => k0_hw27

def k0_off28 (v247 : BitVec 32) : Fin 4 → Nat :=
  let v253 : Index := Scalar.indexCast v247
  let c0_191 : Index := 0#32
  let c0_192 : Index := 0#32
  let c0_193 : Index := 0#32
  ![v253.toNat, 0, 0, 0]

def k0_chk28 (v247 : BitVec 32) : Prop :=
  (∀ a, (k0_off28 v247) a + S1x4x32x1024.size a ≤ S8x4x32x1024.size a)
instance k0_chk28.dec : ∀ (v247 : BitVec 32), Decidable (k0_chk28 v247) := fun v247 => decidable_of_iff' _ (Iff.of_eq (k0_chk28.eq_1 v247))
theorem k0_off28_inb : ∀ (v247 : BitVec 32) (k0_hw28 : k0_chk28 v247), ∀ a, (k0_off28 v247) a + S1x4x32x1024.size a ≤ S8x4x32x1024.size a := fun v247 k0_hw28 => k0_hw28

def k0_off29 (v264 : BitVec 32) : Fin 4 → Nat :=
  let v266 : Index := Scalar.indexCast v264
  let c0_198 : Index := 0#32
  let c0_199 : Index := 0#32
  let c0_200 : Index := 0#32
  ![v266.toNat, 0, 0, 0]

def k0_chk29 (v264 : BitVec 32) : Prop :=
  (∀ a, (k0_off29 v264) a + S1x4x32x1024.size a ≤ S8x4x32x1024.size a)
instance k0_chk29.dec : ∀ (v264 : BitVec 32), Decidable (k0_chk29 v264) := fun v264 => decidable_of_iff' _ (Iff.of_eq (k0_chk29.eq_1 v264))
theorem k0_off29_inb : ∀ (v264 : BitVec 32) (k0_hw29 : k0_chk29 v264), ∀ a, (k0_off29 v264) a + S1x4x32x1024.size a ≤ S8x4x32x1024.size a := fun v264 k0_hw29 => k0_hw29

def k0_off30 (v265 : BitVec 32) : Fin 4 → Nat :=
  let v271 : Index := Scalar.indexCast v265
  let c0_204 : Index := 0#32
  let c0_205 : Index := 0#32
  let c0_206 : Index := 0#32
  ![v271.toNat, 0, 0, 0]

def k0_chk30 (v265 : BitVec 32) : Prop :=
  (∀ a, (k0_off30 v265) a + S1x4x32x1024.size a ≤ S8x4x32x1024.size a)
instance k0_chk30.dec : ∀ (v265 : BitVec 32), Decidable (k0_chk30 v265) := fun v265 => decidable_of_iff' _ (Iff.of_eq (k0_chk30.eq_1 v265))
theorem k0_off30_inb : ∀ (v265 : BitVec 32) (k0_hw30 : k0_chk30 v265), ∀ a, (k0_off30 v265) a + S1x4x32x1024.size a ≤ S8x4x32x1024.size a := fun v265 k0_hw30 => k0_hw30

def k0_off31 (v282 : BitVec 32) : Fin 4 → Nat :=
  let v284 : Index := Scalar.indexCast v282
  let c0_211 : Index := 0#32
  let c0_212 : Index := 0#32
  let c0_213 : Index := 0#32
  ![v284.toNat, 0, 0, 0]

def k0_chk31 (v282 : BitVec 32) : Prop :=
  (∀ a, (k0_off31 v282) a + S1x4x32x1024.size a ≤ S8x4x32x1024.size a)
instance k0_chk31.dec : ∀ (v282 : BitVec 32), Decidable (k0_chk31 v282) := fun v282 => decidable_of_iff' _ (Iff.of_eq (k0_chk31.eq_1 v282))
theorem k0_off31_inb : ∀ (v282 : BitVec 32) (k0_hw31 : k0_chk31 v282), ∀ a, (k0_off31 v282) a + S1x4x32x1024.size a ≤ S8x4x32x1024.size a := fun v282 k0_hw31 => k0_hw31

def k0_off32 (v283 : BitVec 32) : Fin 4 → Nat :=
  let v289 : Index := Scalar.indexCast v283
  let c0_217 : Index := 0#32
  let c0_218 : Index := 0#32
  let c0_219 : Index := 0#32
  ![v289.toNat, 0, 0, 0]

def k0_chk32 (v283 : BitVec 32) : Prop :=
  (∀ a, (k0_off32 v283) a + S1x4x32x1024.size a ≤ S8x4x32x1024.size a)
instance k0_chk32.dec : ∀ (v283 : BitVec 32), Decidable (k0_chk32 v283) := fun v283 => decidable_of_iff' _ (Iff.of_eq (k0_chk32.eq_1 v283))
theorem k0_off32_inb : ∀ (v283 : BitVec 32) (k0_hw32 : k0_chk32 v283), ∀ a, (k0_off32 v283) a + S1x4x32x1024.size a ≤ S8x4x32x1024.size a := fun v283 k0_hw32 => k0_hw32

def k0_off33 (v300 : BitVec 32) : Fin 4 → Nat :=
  let v302 : Index := Scalar.indexCast v300
  let c0_224 : Index := 0#32
  let c0_225 : Index := 0#32
  let c0_226 : Index := 0#32
  ![v302.toNat, 0, 0, 0]

def k0_chk33 (v300 : BitVec 32) : Prop :=
  (∀ a, (k0_off33 v300) a + S1x4x32x1024.size a ≤ S8x4x32x1024.size a)
instance k0_chk33.dec : ∀ (v300 : BitVec 32), Decidable (k0_chk33 v300) := fun v300 => decidable_of_iff' _ (Iff.of_eq (k0_chk33.eq_1 v300))
theorem k0_off33_inb : ∀ (v300 : BitVec 32) (k0_hw33 : k0_chk33 v300), ∀ a, (k0_off33 v300) a + S1x4x32x1024.size a ≤ S8x4x32x1024.size a := fun v300 k0_hw33 => k0_hw33

def k0_off34 (v301 : BitVec 32) : Fin 4 → Nat :=
  let v307 : Index := Scalar.indexCast v301
  let c0_230 : Index := 0#32
  let c0_231 : Index := 0#32
  let c0_232 : Index := 0#32
  ![v307.toNat, 0, 0, 0]

def k0_chk34 (v301 : BitVec 32) : Prop :=
  (∀ a, (k0_off34 v301) a + S1x4x32x1024.size a ≤ S8x4x32x1024.size a)
instance k0_chk34.dec : ∀ (v301 : BitVec 32), Decidable (k0_chk34 v301) := fun v301 => decidable_of_iff' _ (Iff.of_eq (k0_chk34.eq_1 v301))
theorem k0_off34_inb : ∀ (v301 : BitVec 32) (k0_hw34 : k0_chk34 v301), ∀ a, (k0_off34 v301) a + S1x4x32x1024.size a ≤ S8x4x32x1024.size a := fun v301 k0_hw34 => k0_hw34

def k0_off35 (v318 : BitVec 32) : Fin 4 → Nat :=
  let v320 : Index := Scalar.indexCast v318
  let c0_237 : Index := 0#32
  let c0_238 : Index := 0#32
  let c0_239 : Index := 0#32
  ![v320.toNat, 0, 0, 0]

def k0_chk35 (v318 : BitVec 32) : Prop :=
  (∀ a, (k0_off35 v318) a + S1x4x32x1024.size a ≤ S8x4x32x1024.size a)
instance k0_chk35.dec : ∀ (v318 : BitVec 32), Decidable (k0_chk35 v318) := fun v318 => decidable_of_iff' _ (Iff.of_eq (k0_chk35.eq_1 v318))
theorem k0_off35_inb : ∀ (v318 : BitVec 32) (k0_hw35 : k0_chk35 v318), ∀ a, (k0_off35 v318) a + S1x4x32x1024.size a ≤ S8x4x32x1024.size a := fun v318 k0_hw35 => k0_hw35

def k0_off36 (v319 : BitVec 32) : Fin 4 → Nat :=
  let v325 : Index := Scalar.indexCast v319
  let c0_243 : Index := 0#32
  let c0_244 : Index := 0#32
  let c0_245 : Index := 0#32
  ![v325.toNat, 0, 0, 0]

def k0_chk36 (v319 : BitVec 32) : Prop :=
  (∀ a, (k0_off36 v319) a + S1x4x32x1024.size a ≤ S8x4x32x1024.size a)
instance k0_chk36.dec : ∀ (v319 : BitVec 32), Decidable (k0_chk36 v319) := fun v319 => decidable_of_iff' _ (Iff.of_eq (k0_chk36.eq_1 v319))
theorem k0_off36_inb : ∀ (v319 : BitVec 32) (k0_hw36 : k0_chk36 v319), ∀ a, (k0_off36 v319) a + S1x4x32x1024.size a ≤ S8x4x32x1024.size a := fun v319 k0_hw36 => k0_hw36

def k0_off37 (v336 : BitVec 32) : Fin 4 → Nat :=
  let v338 : Index := Scalar.indexCast v336
  let c0_250 : Index := 0#32
  let c0_251 : Index := 0#32
  let c0_252 : Index := 0#32
  ![v338.toNat, 0, 0, 0]

def k0_chk37 (v336 : BitVec 32) : Prop :=
  (∀ a, (k0_off37 v336) a + S1x4x32x1024.size a ≤ S8x4x32x1024.size a)
instance k0_chk37.dec : ∀ (v336 : BitVec 32), Decidable (k0_chk37 v336) := fun v336 => decidable_of_iff' _ (Iff.of_eq (k0_chk37.eq_1 v336))
theorem k0_off37_inb : ∀ (v336 : BitVec 32) (k0_hw37 : k0_chk37 v336), ∀ a, (k0_off37 v336) a + S1x4x32x1024.size a ≤ S8x4x32x1024.size a := fun v336 k0_hw37 => k0_hw37

def k0_off38 (v337 : BitVec 32) : Fin 4 → Nat :=
  let v343 : Index := Scalar.indexCast v337
  let c0_256 : Index := 0#32
  let c0_257 : Index := 0#32
  let c0_258 : Index := 0#32
  ![v343.toNat, 0, 0, 0]

def k0_chk38 (v337 : BitVec 32) : Prop :=
  (∀ a, (k0_off38 v337) a + S1x4x32x1024.size a ≤ S8x4x32x1024.size a)
instance k0_chk38.dec : ∀ (v337 : BitVec 32), Decidable (k0_chk38 v337) := fun v337 => decidable_of_iff' _ (Iff.of_eq (k0_chk38.eq_1 v337))
theorem k0_off38_inb : ∀ (v337 : BitVec 32) (k0_hw38 : k0_chk38 v337), ∀ a, (k0_off38 v337) a + S1x4x32x1024.size a ≤ S8x4x32x1024.size a := fun v337 k0_hw38 => k0_hw38

def k0_off39 (v354 : BitVec 32) : Fin 4 → Nat :=
  let v356 : Index := Scalar.indexCast v354
  let c0_263 : Index := 0#32
  let c0_264 : Index := 0#32
  let c0_265 : Index := 0#32
  ![v356.toNat, 0, 0, 0]

def k0_chk39 (v354 : BitVec 32) : Prop :=
  (∀ a, (k0_off39 v354) a + S1x4x32x1024.size a ≤ S8x4x32x1024.size a)
instance k0_chk39.dec : ∀ (v354 : BitVec 32), Decidable (k0_chk39 v354) := fun v354 => decidable_of_iff' _ (Iff.of_eq (k0_chk39.eq_1 v354))
theorem k0_off39_inb : ∀ (v354 : BitVec 32) (k0_hw39 : k0_chk39 v354), ∀ a, (k0_off39 v354) a + S1x4x32x1024.size a ≤ S8x4x32x1024.size a := fun v354 k0_hw39 => k0_hw39

def k0_off40 (v355 : BitVec 32) : Fin 4 → Nat :=
  let v361 : Index := Scalar.indexCast v355
  let c0_269 : Index := 0#32
  let c0_270 : Index := 0#32
  let c0_271 : Index := 0#32
  ![v361.toNat, 0, 0, 0]

def k0_chk40 (v355 : BitVec 32) : Prop :=
  (∀ a, (k0_off40 v355) a + S1x4x32x1024.size a ≤ S8x4x32x1024.size a)
instance k0_chk40.dec : ∀ (v355 : BitVec 32), Decidable (k0_chk40 v355) := fun v355 => decidable_of_iff' _ (Iff.of_eq (k0_chk40.eq_1 v355))
theorem k0_off40_inb : ∀ (v355 : BitVec 32) (k0_hw40 : k0_chk40 v355), ∀ a, (k0_off40 v355) a + S1x4x32x1024.size a ≤ S8x4x32x1024.size a := fun v355 k0_hw40 => k0_hw40

def k0_off41 (v372 : BitVec 32) : Fin 4 → Nat :=
  let v374 : Index := Scalar.indexCast v372
  let c0_276 : Index := 0#32
  let c0_277 : Index := 0#32
  let c0_278 : Index := 0#32
  ![v374.toNat, 0, 0, 0]

def k0_chk41 (v372 : BitVec 32) : Prop :=
  (∀ a, (k0_off41 v372) a + S1x4x32x1024.size a ≤ S8x4x32x1024.size a)
instance k0_chk41.dec : ∀ (v372 : BitVec 32), Decidable (k0_chk41 v372) := fun v372 => decidable_of_iff' _ (Iff.of_eq (k0_chk41.eq_1 v372))
theorem k0_off41_inb : ∀ (v372 : BitVec 32) (k0_hw41 : k0_chk41 v372), ∀ a, (k0_off41 v372) a + S1x4x32x1024.size a ≤ S8x4x32x1024.size a := fun v372 k0_hw41 => k0_hw41

def k0_off42 (v373 : BitVec 32) : Fin 4 → Nat :=
  let v379 : Index := Scalar.indexCast v373
  let c0_282 : Index := 0#32
  let c0_283 : Index := 0#32
  let c0_284 : Index := 0#32
  ![v379.toNat, 0, 0, 0]

def k0_chk42 (v373 : BitVec 32) : Prop :=
  (∀ a, (k0_off42 v373) a + S1x4x32x1024.size a ≤ S8x4x32x1024.size a)
instance k0_chk42.dec : ∀ (v373 : BitVec 32), Decidable (k0_chk42 v373) := fun v373 => decidable_of_iff' _ (Iff.of_eq (k0_chk42.eq_1 v373))
theorem k0_off42_inb : ∀ (v373 : BitVec 32) (k0_hw42 : k0_chk42 v373), ∀ a, (k0_off42 v373) a + S1x4x32x1024.size a ≤ S8x4x32x1024.size a := fun v373 k0_hw42 => k0_hw42

def k0_off43 (v390 : BitVec 32) : Fin 4 → Nat :=
  let v392 : Index := Scalar.indexCast v390
  let c0_289 : Index := 0#32
  let c0_290 : Index := 0#32
  let c0_291 : Index := 0#32
  ![v392.toNat, 0, 0, 0]

def k0_chk43 (v390 : BitVec 32) : Prop :=
  (∀ a, (k0_off43 v390) a + S1x4x32x1024.size a ≤ S8x4x32x1024.size a)
instance k0_chk43.dec : ∀ (v390 : BitVec 32), Decidable (k0_chk43 v390) := fun v390 => decidable_of_iff' _ (Iff.of_eq (k0_chk43.eq_1 v390))
theorem k0_off43_inb : ∀ (v390 : BitVec 32) (k0_hw43 : k0_chk43 v390), ∀ a, (k0_off43 v390) a + S1x4x32x1024.size a ≤ S8x4x32x1024.size a := fun v390 k0_hw43 => k0_hw43

def k0_off44 (v391 : BitVec 32) : Fin 4 → Nat :=
  let v397 : Index := Scalar.indexCast v391
  let c0_295 : Index := 0#32
  let c0_296 : Index := 0#32
  let c0_297 : Index := 0#32
  ![v397.toNat, 0, 0, 0]

def k0_chk44 (v391 : BitVec 32) : Prop :=
  (∀ a, (k0_off44 v391) a + S1x4x32x1024.size a ≤ S8x4x32x1024.size a)
instance k0_chk44.dec : ∀ (v391 : BitVec 32), Decidable (k0_chk44 v391) := fun v391 => decidable_of_iff' _ (Iff.of_eq (k0_chk44.eq_1 v391))
theorem k0_off44_inb : ∀ (v391 : BitVec 32) (k0_hw44 : k0_chk44 v391), ∀ a, (k0_off44 v391) a + S1x4x32x1024.size a ≤ S8x4x32x1024.size a := fun v391 k0_hw44 => k0_hw44

def k0_off45 (v408 : BitVec 32) : Fin 4 → Nat :=
  let v410 : Index := Scalar.indexCast v408
  let c0_302 : Index := 0#32
  let c0_303 : Index := 0#32
  let c0_304 : Index := 0#32
  ![v410.toNat, 0, 0, 0]

def k0_chk45 (v408 : BitVec 32) : Prop :=
  (∀ a, (k0_off45 v408) a + S1x4x32x1024.size a ≤ S8x4x32x1024.size a)
instance k0_chk45.dec : ∀ (v408 : BitVec 32), Decidable (k0_chk45 v408) := fun v408 => decidable_of_iff' _ (Iff.of_eq (k0_chk45.eq_1 v408))
theorem k0_off45_inb : ∀ (v408 : BitVec 32) (k0_hw45 : k0_chk45 v408), ∀ a, (k0_off45 v408) a + S1x4x32x1024.size a ≤ S8x4x32x1024.size a := fun v408 k0_hw45 => k0_hw45

def k0_off46 (v409 : BitVec 32) : Fin 4 → Nat :=
  let v415 : Index := Scalar.indexCast v409
  let c0_308 : Index := 0#32
  let c0_309 : Index := 0#32
  let c0_310 : Index := 0#32
  ![v415.toNat, 0, 0, 0]

def k0_chk46 (v409 : BitVec 32) : Prop :=
  (∀ a, (k0_off46 v409) a + S1x4x32x1024.size a ≤ S8x4x32x1024.size a)
instance k0_chk46.dec : ∀ (v409 : BitVec 32), Decidable (k0_chk46 v409) := fun v409 => decidable_of_iff' _ (Iff.of_eq (k0_chk46.eq_1 v409))
theorem k0_off46_inb : ∀ (v409 : BitVec 32) (k0_hw46 : k0_chk46 v409), ∀ a, (k0_off46 v409) a + S1x4x32x1024.size a ≤ S8x4x32x1024.size a := fun v409 k0_hw46 => k0_hw46

def k0_off47 (v426 : BitVec 32) : Fin 4 → Nat :=
  let v428 : Index := Scalar.indexCast v426
  let c0_315 : Index := 0#32
  let c0_316 : Index := 0#32
  let c0_317 : Index := 0#32
  ![v428.toNat, 0, 0, 0]

def k0_chk47 (v426 : BitVec 32) : Prop :=
  (∀ a, (k0_off47 v426) a + S1x4x32x1024.size a ≤ S8x4x32x1024.size a)
instance k0_chk47.dec : ∀ (v426 : BitVec 32), Decidable (k0_chk47 v426) := fun v426 => decidable_of_iff' _ (Iff.of_eq (k0_chk47.eq_1 v426))
theorem k0_off47_inb : ∀ (v426 : BitVec 32) (k0_hw47 : k0_chk47 v426), ∀ a, (k0_off47 v426) a + S1x4x32x1024.size a ≤ S8x4x32x1024.size a := fun v426 k0_hw47 => k0_hw47

def k0_off48 (v427 : BitVec 32) : Fin 4 → Nat :=
  let v433 : Index := Scalar.indexCast v427
  let c0_321 : Index := 0#32
  let c0_322 : Index := 0#32
  let c0_323 : Index := 0#32
  ![v433.toNat, 0, 0, 0]

def k0_chk48 (v427 : BitVec 32) : Prop :=
  (∀ a, (k0_off48 v427) a + S1x4x32x1024.size a ≤ S8x4x32x1024.size a)
instance k0_chk48.dec : ∀ (v427 : BitVec 32), Decidable (k0_chk48 v427) := fun v427 => decidable_of_iff' _ (Iff.of_eq (k0_chk48.eq_1 v427))
theorem k0_off48_inb : ∀ (v427 : BitVec 32) (k0_hw48 : k0_chk48 v427), ∀ a, (k0_off48 v427) a + S1x4x32x1024.size a ≤ S8x4x32x1024.size a := fun v427 k0_hw48 => k0_hw48

def k0_off49 (v444 : BitVec 32) : Fin 4 → Nat :=
  let v446 : Index := Scalar.indexCast v444
  let c0_328 : Index := 0#32
  let c0_329 : Index := 0#32
  let c0_330 : Index := 0#32
  ![v446.toNat, 0, 0, 0]

def k0_chk49 (v444 : BitVec 32) : Prop :=
  (∀ a, (k0_off49 v444) a + S1x4x32x1024.size a ≤ S8x4x32x1024.size a)
instance k0_chk49.dec : ∀ (v444 : BitVec 32), Decidable (k0_chk49 v444) := fun v444 => decidable_of_iff' _ (Iff.of_eq (k0_chk49.eq_1 v444))
theorem k0_off49_inb : ∀ (v444 : BitVec 32) (k0_hw49 : k0_chk49 v444), ∀ a, (k0_off49 v444) a + S1x4x32x1024.size a ≤ S8x4x32x1024.size a := fun v444 k0_hw49 => k0_hw49

def k0_off50 (v445 : BitVec 32) : Fin 4 → Nat :=
  let v451 : Index := Scalar.indexCast v445
  let c0_334 : Index := 0#32
  let c0_335 : Index := 0#32
  let c0_336 : Index := 0#32
  ![v451.toNat, 0, 0, 0]

def k0_chk50 (v445 : BitVec 32) : Prop :=
  (∀ a, (k0_off50 v445) a + S1x4x32x1024.size a ≤ S8x4x32x1024.size a)
instance k0_chk50.dec : ∀ (v445 : BitVec 32), Decidable (k0_chk50 v445) := fun v445 => decidable_of_iff' _ (Iff.of_eq (k0_chk50.eq_1 v445))
theorem k0_off50_inb : ∀ (v445 : BitVec 32) (k0_hw50 : k0_chk50 v445), ∀ a, (k0_off50 v445) a + S1x4x32x1024.size a ≤ S8x4x32x1024.size a := fun v445 k0_hw50 => k0_hw50

def k0_off51 (v462 : BitVec 32) : Fin 4 → Nat :=
  let v464 : Index := Scalar.indexCast v462
  let c0_341 : Index := 0#32
  let c0_342 : Index := 0#32
  let c0_343 : Index := 0#32
  ![v464.toNat, 0, 0, 0]

def k0_chk51 (v462 : BitVec 32) : Prop :=
  (∀ a, (k0_off51 v462) a + S1x4x32x1024.size a ≤ S8x4x32x1024.size a)
instance k0_chk51.dec : ∀ (v462 : BitVec 32), Decidable (k0_chk51 v462) := fun v462 => decidable_of_iff' _ (Iff.of_eq (k0_chk51.eq_1 v462))
theorem k0_off51_inb : ∀ (v462 : BitVec 32) (k0_hw51 : k0_chk51 v462), ∀ a, (k0_off51 v462) a + S1x4x32x1024.size a ≤ S8x4x32x1024.size a := fun v462 k0_hw51 => k0_hw51

def k0_off52 (v463 : BitVec 32) : Fin 4 → Nat :=
  let v469 : Index := Scalar.indexCast v463
  let c0_347 : Index := 0#32
  let c0_348 : Index := 0#32
  let c0_349 : Index := 0#32
  ![v469.toNat, 0, 0, 0]

def k0_chk52 (v463 : BitVec 32) : Prop :=
  (∀ a, (k0_off52 v463) a + S1x4x32x1024.size a ≤ S8x4x32x1024.size a)
instance k0_chk52.dec : ∀ (v463 : BitVec 32), Decidable (k0_chk52 v463) := fun v463 => decidable_of_iff' _ (Iff.of_eq (k0_chk52.eq_1 v463))
theorem k0_off52_inb : ∀ (v463 : BitVec 32) (k0_hw52 : k0_chk52 v463), ∀ a, (k0_off52 v463) a + S1x4x32x1024.size a ≤ S8x4x32x1024.size a := fun v463 k0_hw52 => k0_hw52

def k0_off53 (v480 : BitVec 32) : Fin 4 → Nat :=
  let v482 : Index := Scalar.indexCast v480
  let c0_354 : Index := 0#32
  let c0_355 : Index := 0#32
  let c0_356 : Index := 0#32
  ![v482.toNat, 0, 0, 0]

def k0_chk53 (v480 : BitVec 32) : Prop :=
  (∀ a, (k0_off53 v480) a + S1x4x32x1024.size a ≤ S8x4x32x1024.size a)
instance k0_chk53.dec : ∀ (v480 : BitVec 32), Decidable (k0_chk53 v480) := fun v480 => decidable_of_iff' _ (Iff.of_eq (k0_chk53.eq_1 v480))
theorem k0_off53_inb : ∀ (v480 : BitVec 32) (k0_hw53 : k0_chk53 v480), ∀ a, (k0_off53 v480) a + S1x4x32x1024.size a ≤ S8x4x32x1024.size a := fun v480 k0_hw53 => k0_hw53

def k0_off54 (v481 : BitVec 32) : Fin 4 → Nat :=
  let v487 : Index := Scalar.indexCast v481
  let c0_360 : Index := 0#32
  let c0_361 : Index := 0#32
  let c0_362 : Index := 0#32
  ![v487.toNat, 0, 0, 0]

def k0_chk54 (v481 : BitVec 32) : Prop :=
  (∀ a, (k0_off54 v481) a + S1x4x32x1024.size a ≤ S8x4x32x1024.size a)
instance k0_chk54.dec : ∀ (v481 : BitVec 32), Decidable (k0_chk54 v481) := fun v481 => decidable_of_iff' _ (Iff.of_eq (k0_chk54.eq_1 v481))
theorem k0_off54_inb : ∀ (v481 : BitVec 32) (k0_hw54 : k0_chk54 v481), ∀ a, (k0_off54 v481) a + S1x4x32x1024.size a ≤ S8x4x32x1024.size a := fun v481 k0_hw54 => k0_hw54

def k0_off55 (v498 : BitVec 32) : Fin 4 → Nat :=
  let v500 : Index := Scalar.indexCast v498
  let c0_367 : Index := 0#32
  let c0_368 : Index := 0#32
  let c0_369 : Index := 0#32
  ![v500.toNat, 0, 0, 0]

def k0_chk55 (v498 : BitVec 32) : Prop :=
  (∀ a, (k0_off55 v498) a + S1x4x32x1024.size a ≤ S8x4x32x1024.size a)
instance k0_chk55.dec : ∀ (v498 : BitVec 32), Decidable (k0_chk55 v498) := fun v498 => decidable_of_iff' _ (Iff.of_eq (k0_chk55.eq_1 v498))
theorem k0_off55_inb : ∀ (v498 : BitVec 32) (k0_hw55 : k0_chk55 v498), ∀ a, (k0_off55 v498) a + S1x4x32x1024.size a ≤ S8x4x32x1024.size a := fun v498 k0_hw55 => k0_hw55

def k0_off56 (v499 : BitVec 32) : Fin 4 → Nat :=
  let v505 : Index := Scalar.indexCast v499
  let c0_373 : Index := 0#32
  let c0_374 : Index := 0#32
  let c0_375 : Index := 0#32
  ![v505.toNat, 0, 0, 0]

def k0_chk56 (v499 : BitVec 32) : Prop :=
  (∀ a, (k0_off56 v499) a + S1x4x32x1024.size a ≤ S8x4x32x1024.size a)
instance k0_chk56.dec : ∀ (v499 : BitVec 32), Decidable (k0_chk56 v499) := fun v499 => decidable_of_iff' _ (Iff.of_eq (k0_chk56.eq_1 v499))
theorem k0_off56_inb : ∀ (v499 : BitVec 32) (k0_hw56 : k0_chk56 v499), ∀ a, (k0_off56 v499) a + S1x4x32x1024.size a ≤ S8x4x32x1024.size a := fun v499 k0_hw56 => k0_hw56

def k0_off57 (v516 : BitVec 32) : Fin 4 → Nat :=
  let v518 : Index := Scalar.indexCast v516
  let c0_380 : Index := 0#32
  let c0_381 : Index := 0#32
  let c0_382 : Index := 0#32
  ![v518.toNat, 0, 0, 0]

def k0_chk57 (v516 : BitVec 32) : Prop :=
  (∀ a, (k0_off57 v516) a + S1x4x32x1024.size a ≤ S8x4x32x1024.size a)
instance k0_chk57.dec : ∀ (v516 : BitVec 32), Decidable (k0_chk57 v516) := fun v516 => decidable_of_iff' _ (Iff.of_eq (k0_chk57.eq_1 v516))
theorem k0_off57_inb : ∀ (v516 : BitVec 32) (k0_hw57 : k0_chk57 v516), ∀ a, (k0_off57 v516) a + S1x4x32x1024.size a ≤ S8x4x32x1024.size a := fun v516 k0_hw57 => k0_hw57

def k0_off58 (v517 : BitVec 32) : Fin 4 → Nat :=
  let v523 : Index := Scalar.indexCast v517
  let c0_386 : Index := 0#32
  let c0_387 : Index := 0#32
  let c0_388 : Index := 0#32
  ![v523.toNat, 0, 0, 0]

def k0_chk58 (v517 : BitVec 32) : Prop :=
  (∀ a, (k0_off58 v517) a + S1x4x32x1024.size a ≤ S8x4x32x1024.size a)
instance k0_chk58.dec : ∀ (v517 : BitVec 32), Decidable (k0_chk58 v517) := fun v517 => decidable_of_iff' _ (Iff.of_eq (k0_chk58.eq_1 v517))
theorem k0_off58_inb : ∀ (v517 : BitVec 32) (k0_hw58 : k0_chk58 v517), ∀ a, (k0_off58 v517) a + S1x4x32x1024.size a ≤ S8x4x32x1024.size a := fun v517 k0_hw58 => k0_hw58

def k0_off59 (v534 : BitVec 32) : Fin 4 → Nat :=
  let v536 : Index := Scalar.indexCast v534
  let c0_393 : Index := 0#32
  let c0_394 : Index := 0#32
  let c0_395 : Index := 0#32
  ![v536.toNat, 0, 0, 0]

def k0_chk59 (v534 : BitVec 32) : Prop :=
  (∀ a, (k0_off59 v534) a + S1x4x32x1024.size a ≤ S8x4x32x1024.size a)
instance k0_chk59.dec : ∀ (v534 : BitVec 32), Decidable (k0_chk59 v534) := fun v534 => decidable_of_iff' _ (Iff.of_eq (k0_chk59.eq_1 v534))
theorem k0_off59_inb : ∀ (v534 : BitVec 32) (k0_hw59 : k0_chk59 v534), ∀ a, (k0_off59 v534) a + S1x4x32x1024.size a ≤ S8x4x32x1024.size a := fun v534 k0_hw59 => k0_hw59

def k0_off60 (v535 : BitVec 32) : Fin 4 → Nat :=
  let v541 : Index := Scalar.indexCast v535
  let c0_399 : Index := 0#32
  let c0_400 : Index := 0#32
  let c0_401 : Index := 0#32
  ![v541.toNat, 0, 0, 0]

def k0_chk60 (v535 : BitVec 32) : Prop :=
  (∀ a, (k0_off60 v535) a + S1x4x32x1024.size a ≤ S8x4x32x1024.size a)
instance k0_chk60.dec : ∀ (v535 : BitVec 32), Decidable (k0_chk60 v535) := fun v535 => decidable_of_iff' _ (Iff.of_eq (k0_chk60.eq_1 v535))
theorem k0_off60_inb : ∀ (v535 : BitVec 32) (k0_hw60 : k0_chk60 v535), ∀ a, (k0_off60 v535) a + S1x4x32x1024.size a ≤ S8x4x32x1024.size a := fun v535 k0_hw60 => k0_hw60

def k0_off61 (v552 : BitVec 32) : Fin 4 → Nat :=
  let v554 : Index := Scalar.indexCast v552
  let c0_406 : Index := 0#32
  let c0_407 : Index := 0#32
  let c0_408 : Index := 0#32
  ![v554.toNat, 0, 0, 0]

def k0_chk61 (v552 : BitVec 32) : Prop :=
  (∀ a, (k0_off61 v552) a + S1x4x32x1024.size a ≤ S8x4x32x1024.size a)
instance k0_chk61.dec : ∀ (v552 : BitVec 32), Decidable (k0_chk61 v552) := fun v552 => decidable_of_iff' _ (Iff.of_eq (k0_chk61.eq_1 v552))
theorem k0_off61_inb : ∀ (v552 : BitVec 32) (k0_hw61 : k0_chk61 v552), ∀ a, (k0_off61 v552) a + S1x4x32x1024.size a ≤ S8x4x32x1024.size a := fun v552 k0_hw61 => k0_hw61

def k0_off62 (v553 : BitVec 32) : Fin 4 → Nat :=
  let v559 : Index := Scalar.indexCast v553
  let c0_412 : Index := 0#32
  let c0_413 : Index := 0#32
  let c0_414 : Index := 0#32
  ![v559.toNat, 0, 0, 0]

def k0_chk62 (v553 : BitVec 32) : Prop :=
  (∀ a, (k0_off62 v553) a + S1x4x32x1024.size a ≤ S8x4x32x1024.size a)
instance k0_chk62.dec : ∀ (v553 : BitVec 32), Decidable (k0_chk62 v553) := fun v553 => decidable_of_iff' _ (Iff.of_eq (k0_chk62.eq_1 v553))
theorem k0_off62_inb : ∀ (v553 : BitVec 32) (k0_hw62 : k0_chk62 v553), ∀ a, (k0_off62 v553) a + S1x4x32x1024.size a ≤ S8x4x32x1024.size a := fun v553 k0_hw62 => k0_hw62

def k0_off63 (v570 : BitVec 32) : Fin 4 → Nat :=
  let v572 : Index := Scalar.indexCast v570
  let c0_419 : Index := 0#32
  let c0_420 : Index := 0#32
  let c0_421 : Index := 0#32
  ![v572.toNat, 0, 0, 0]

def k0_chk63 (v570 : BitVec 32) : Prop :=
  (∀ a, (k0_off63 v570) a + S1x4x32x1024.size a ≤ S8x4x32x1024.size a)
instance k0_chk63.dec : ∀ (v570 : BitVec 32), Decidable (k0_chk63 v570) := fun v570 => decidable_of_iff' _ (Iff.of_eq (k0_chk63.eq_1 v570))
theorem k0_off63_inb : ∀ (v570 : BitVec 32) (k0_hw63 : k0_chk63 v570), ∀ a, (k0_off63 v570) a + S1x4x32x1024.size a ≤ S8x4x32x1024.size a := fun v570 k0_hw63 => k0_hw63

def k0_off64 (v571 : BitVec 32) : Fin 4 → Nat :=
  let v577 : Index := Scalar.indexCast v571
  let c0_425 : Index := 0#32
  let c0_426 : Index := 0#32
  let c0_427 : Index := 0#32
  ![v577.toNat, 0, 0, 0]

def k0_chk64 (v571 : BitVec 32) : Prop :=
  (∀ a, (k0_off64 v571) a + S1x4x32x1024.size a ≤ S8x4x32x1024.size a)
instance k0_chk64.dec : ∀ (v571 : BitVec 32), Decidable (k0_chk64 v571) := fun v571 => decidable_of_iff' _ (Iff.of_eq (k0_chk64.eq_1 v571))
theorem k0_off64_inb : ∀ (v571 : BitVec 32) (k0_hw64 : k0_chk64 v571), ∀ a, (k0_off64 v571) a + S1x4x32x1024.size a ≤ S8x4x32x1024.size a := fun v571 k0_hw64 => k0_hw64

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S8x4x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x4x32x1024_S8x4x32x1024_0_0_0_0 : ∀ a, (![0, 0, 0, 0] : Fin 4 → Nat) a + S8x4x32x1024.size a ≤ S8x4x32x1024.size a
  h_S8x4x32x1024 : 0 < S8x4x32x1024.numel
  inb_S8x32x1024_S8x32x1024_0_0_0 : ∀ a, (![0, 0, 0] : Fin 3 → Nat) a + S8x32x1024.size a ≤ S8x32x1024.size a
  h_S8x32x1024 : 0 < S8x32x1024.numel
  shapeCasts_S8x32x1024_S8x1x32x1024 : S8x32x1024.ShapeCasts S8x1x32x1024
  broadcasts_S8x1x32x1024_S8x4x32x1024 : S8x1x32x1024.Broadcasts S8x4x32x1024
  shapeCasts_S8x4x32x1024_S8x4x32x1024 : S8x4x32x1024.ShapeCasts S8x4x32x1024
  inb_S32_S1_0 : ∀ a, (![0] : Fin 1 → Nat) a + S1.size a ≤ S32.size a
  numel1_S1 : S1.numel = 1
  h_S1x4x32x1024 : 0 < S1x4x32x1024.numel
  shapeCasts_S1x4x32x1024_S4x32x1024 : S1x4x32x1024.ShapeCasts S4x32x1024
  inb_S32x32x1024_S1x32x1024_0_0_0 : ∀ a, (![0, 0, 0] : Fin 3 → Nat) a + S1x32x1024.size a ≤ S32x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  broadcasts_S1x32x1024_S4x32x1024 : S1x32x1024.Broadcasts S4x32x1024
  shapeCasts_S4x32x1024_S1x4x32x1024 : S4x32x1024.ShapeCasts S1x4x32x1024
  inb_S32_S1_1 : ∀ a, (![1] : Fin 1 → Nat) a + S1.size a ≤ S32.size a
  inb_S32x32x1024_S1x32x1024_1_0_0 : ∀ a, (![1, 0, 0] : Fin 3 → Nat) a + S1x32x1024.size a ≤ S32x32x1024.size a
  inb_S32_S1_2 : ∀ a, (![2] : Fin 1 → Nat) a + S1.size a ≤ S32.size a
  inb_S32x32x1024_S1x32x1024_2_0_0 : ∀ a, (![2, 0, 0] : Fin 3 → Nat) a + S1x32x1024.size a ≤ S32x32x1024.size a
  inb_S32_S1_3 : ∀ a, (![3] : Fin 1 → Nat) a + S1.size a ≤ S32.size a
  inb_S32x32x1024_S1x32x1024_3_0_0 : ∀ a, (![3, 0, 0] : Fin 3 → Nat) a + S1x32x1024.size a ≤ S32x32x1024.size a
  inb_S32_S1_4 : ∀ a, (![4] : Fin 1 → Nat) a + S1.size a ≤ S32.size a
  inb_S32x32x1024_S1x32x1024_4_0_0 : ∀ a, (![4, 0, 0] : Fin 3 → Nat) a + S1x32x1024.size a ≤ S32x32x1024.size a
  inb_S32_S1_5 : ∀ a, (![5] : Fin 1 → Nat) a + S1.size a ≤ S32.size a
  inb_S32x32x1024_S1x32x1024_5_0_0 : ∀ a, (![5, 0, 0] : Fin 3 → Nat) a + S1x32x1024.size a ≤ S32x32x1024.size a
  inb_S32_S1_6 : ∀ a, (![6] : Fin 1 → Nat) a + S1.size a ≤ S32.size a
  inb_S32x32x1024_S1x32x1024_6_0_0 : ∀ a, (![6, 0, 0] : Fin 3 → Nat) a + S1x32x1024.size a ≤ S32x32x1024.size a
  inb_S32_S1_7 : ∀ a, (![7] : Fin 1 → Nat) a + S1.size a ≤ S32.size a
  inb_S32x32x1024_S1x32x1024_7_0_0 : ∀ a, (![7, 0, 0] : Fin 3 → Nat) a + S1x32x1024.size a ≤ S32x32x1024.size a
  inb_S32_S1_8 : ∀ a, (![8] : Fin 1 → Nat) a + S1.size a ≤ S32.size a
  inb_S32x32x1024_S1x32x1024_8_0_0 : ∀ a, (![8, 0, 0] : Fin 3 → Nat) a + S1x32x1024.size a ≤ S32x32x1024.size a
  inb_S32_S1_9 : ∀ a, (![9] : Fin 1 → Nat) a + S1.size a ≤ S32.size a
  inb_S32x32x1024_S1x32x1024_9_0_0 : ∀ a, (![9, 0, 0] : Fin 3 → Nat) a + S1x32x1024.size a ≤ S32x32x1024.size a
  inb_S32_S1_10 : ∀ a, (![10] : Fin 1 → Nat) a + S1.size a ≤ S32.size a
  inb_S32x32x1024_S1x32x1024_10_0_0 : ∀ a, (![10, 0, 0] : Fin 3 → Nat) a + S1x32x1024.size a ≤ S32x32x1024.size a
  inb_S32_S1_11 : ∀ a, (![11] : Fin 1 → Nat) a + S1.size a ≤ S32.size a
  inb_S32x32x1024_S1x32x1024_11_0_0 : ∀ a, (![11, 0, 0] : Fin 3 → Nat) a + S1x32x1024.size a ≤ S32x32x1024.size a
  inb_S32_S1_12 : ∀ a, (![12] : Fin 1 → Nat) a + S1.size a ≤ S32.size a
  inb_S32x32x1024_S1x32x1024_12_0_0 : ∀ a, (![12, 0, 0] : Fin 3 → Nat) a + S1x32x1024.size a ≤ S32x32x1024.size a
  inb_S32_S1_13 : ∀ a, (![13] : Fin 1 → Nat) a + S1.size a ≤ S32.size a
  inb_S32x32x1024_S1x32x1024_13_0_0 : ∀ a, (![13, 0, 0] : Fin 3 → Nat) a + S1x32x1024.size a ≤ S32x32x1024.size a
  inb_S32_S1_14 : ∀ a, (![14] : Fin 1 → Nat) a + S1.size a ≤ S32.size a
  inb_S32x32x1024_S1x32x1024_14_0_0 : ∀ a, (![14, 0, 0] : Fin 3 → Nat) a + S1x32x1024.size a ≤ S32x32x1024.size a
  inb_S32_S1_15 : ∀ a, (![15] : Fin 1 → Nat) a + S1.size a ≤ S32.size a
  inb_S32x32x1024_S1x32x1024_15_0_0 : ∀ a, (![15, 0, 0] : Fin 3 → Nat) a + S1x32x1024.size a ≤ S32x32x1024.size a
  inb_S32_S1_16 : ∀ a, (![16] : Fin 1 → Nat) a + S1.size a ≤ S32.size a
  inb_S32x32x1024_S1x32x1024_16_0_0 : ∀ a, (![16, 0, 0] : Fin 3 → Nat) a + S1x32x1024.size a ≤ S32x32x1024.size a
  inb_S32_S1_17 : ∀ a, (![17] : Fin 1 → Nat) a + S1.size a ≤ S32.size a
  inb_S32x32x1024_S1x32x1024_17_0_0 : ∀ a, (![17, 0, 0] : Fin 3 → Nat) a + S1x32x1024.size a ≤ S32x32x1024.size a
  inb_S32_S1_18 : ∀ a, (![18] : Fin 1 → Nat) a + S1.size a ≤ S32.size a
  inb_S32x32x1024_S1x32x1024_18_0_0 : ∀ a, (![18, 0, 0] : Fin 3 → Nat) a + S1x32x1024.size a ≤ S32x32x1024.size a
  inb_S32_S1_19 : ∀ a, (![19] : Fin 1 → Nat) a + S1.size a ≤ S32.size a
  inb_S32x32x1024_S1x32x1024_19_0_0 : ∀ a, (![19, 0, 0] : Fin 3 → Nat) a + S1x32x1024.size a ≤ S32x32x1024.size a
  inb_S32_S1_20 : ∀ a, (![20] : Fin 1 → Nat) a + S1.size a ≤ S32.size a
  inb_S32x32x1024_S1x32x1024_20_0_0 : ∀ a, (![20, 0, 0] : Fin 3 → Nat) a + S1x32x1024.size a ≤ S32x32x1024.size a
  inb_S32_S1_21 : ∀ a, (![21] : Fin 1 → Nat) a + S1.size a ≤ S32.size a
  inb_S32x32x1024_S1x32x1024_21_0_0 : ∀ a, (![21, 0, 0] : Fin 3 → Nat) a + S1x32x1024.size a ≤ S32x32x1024.size a
  inb_S32_S1_22 : ∀ a, (![22] : Fin 1 → Nat) a + S1.size a ≤ S32.size a
  inb_S32x32x1024_S1x32x1024_22_0_0 : ∀ a, (![22, 0, 0] : Fin 3 → Nat) a + S1x32x1024.size a ≤ S32x32x1024.size a
  inb_S32_S1_23 : ∀ a, (![23] : Fin 1 → Nat) a + S1.size a ≤ S32.size a
  inb_S32x32x1024_S1x32x1024_23_0_0 : ∀ a, (![23, 0, 0] : Fin 3 → Nat) a + S1x32x1024.size a ≤ S32x32x1024.size a
  inb_S32_S1_24 : ∀ a, (![24] : Fin 1 → Nat) a + S1.size a ≤ S32.size a
  inb_S32x32x1024_S1x32x1024_24_0_0 : ∀ a, (![24, 0, 0] : Fin 3 → Nat) a + S1x32x1024.size a ≤ S32x32x1024.size a
  inb_S32_S1_25 : ∀ a, (![25] : Fin 1 → Nat) a + S1.size a ≤ S32.size a
  inb_S32x32x1024_S1x32x1024_25_0_0 : ∀ a, (![25, 0, 0] : Fin 3 → Nat) a + S1x32x1024.size a ≤ S32x32x1024.size a
  inb_S32_S1_26 : ∀ a, (![26] : Fin 1 → Nat) a + S1.size a ≤ S32.size a
  inb_S32x32x1024_S1x32x1024_26_0_0 : ∀ a, (![26, 0, 0] : Fin 3 → Nat) a + S1x32x1024.size a ≤ S32x32x1024.size a
  inb_S32_S1_27 : ∀ a, (![27] : Fin 1 → Nat) a + S1.size a ≤ S32.size a
  inb_S32x32x1024_S1x32x1024_27_0_0 : ∀ a, (![27, 0, 0] : Fin 3 → Nat) a + S1x32x1024.size a ≤ S32x32x1024.size a
  inb_S32_S1_28 : ∀ a, (![28] : Fin 1 → Nat) a + S1.size a ≤ S32.size a
  inb_S32x32x1024_S1x32x1024_28_0_0 : ∀ a, (![28, 0, 0] : Fin 3 → Nat) a + S1x32x1024.size a ≤ S32x32x1024.size a
  inb_S32_S1_29 : ∀ a, (![29] : Fin 1 → Nat) a + S1.size a ≤ S32.size a
  inb_S32x32x1024_S1x32x1024_29_0_0 : ∀ a, (![29, 0, 0] : Fin 3 → Nat) a + S1x32x1024.size a ≤ S32x32x1024.size a
  inb_S32_S1_30 : ∀ a, (![30] : Fin 1 → Nat) a + S1.size a ≤ S32.size a
  inb_S32x32x1024_S1x32x1024_30_0_0 : ∀ a, (![30, 0, 0] : Fin 3 → Nat) a + S1x32x1024.size a ≤ S32x32x1024.size a
  inb_S32_S1_31 : ∀ a, (![31] : Fin 1 → Nat) a + S1.size a ≤ S32.size a
  inb_S32x32x1024_S1x32x1024_31_0_0 : ∀ a, (![31, 0, 0] : Fin 3 → Nat) a + S1x32x1024.size a ≤ S32x32x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x32x1024.size a ≤ S8x4x1024x1024.size a
  hwx0_0 : ∀ i : grid0.Coords, EltTy.bits .f32 = 32 ∨ (Rect.block (s := S8x4x1024x1024) S8x4x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x1024.size a ≤ S8x1024x1024.size a
  hwx0_1 : ∀ i : grid0.Coords, EltTy.bits .f32 = 32 ∨ (Rect.block (s := S8x1024x1024) S8x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x1024.size a ≤ S32x1024x1024.size a
  hwx0_2 : ∀ i : grid0.Coords, EltTy.bits .f32 = 32 ∨ (Rect.block (s := S32x1024x1024) S32x32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x32x1024.size a ≤ S8x4x1024x1024.size a
  hwx0_3 : ∀ i : grid0.Coords, EltTy.bits .f32 = 32 ∨ (Rect.block (s := S8x4x1024x1024) S8x4x32x1024.size (cc0_transform_3 i) (hinb0_3 i)).WholeWords (EltTy.packing .f32)

variable [Facts₀]

abbrev spec0_0 : Pipeline.WinSpec sig grid0.rank :=
  Pipeline.WinSpec.ofSpec (Memref.whole main_arg0) S8x4x32x1024.size reads0_0 false false 2 stage0_0 sem0_0 nbuf0_0 hstage0_0

abbrev spec0_1 : Pipeline.WinSpec sig grid0.rank :=
  Pipeline.WinSpec.ofSpec (Memref.whole main_arg1) S8x32x1024.size reads0_1 false false 2 stage0_1 sem0_1 nbuf0_1 hstage0_1

abbrev spec0_2 : Pipeline.WinSpec sig grid0.rank :=
  Pipeline.WinSpec.ofSpec (Memref.whole main_arg2) S32x32x1024.size reads0_2 false false 2 stage0_2 sem0_2 nbuf0_2 hstage0_2

abbrev spec0_3 : Pipeline.WinSpec sig grid0.rank :=
  Pipeline.WinSpec.ofSpec (Memref.whole main_v0) S8x4x32x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8x4x1024x1024 : Shape := ⟨4, ![8, 4, 1024, 1024]⟩
abbrev S8x1024x1024 : Shape := ⟨3, ![8, 1024, 1024]⟩
abbrev S32x1024x1024 : Shape := ⟨3, ![32, 1024, 1024]⟩
abbrev S32 : Shape := ⟨1, ![32]⟩
abbrev S_ : Shape := ⟨0, ![]⟩
abbrev S32x1 : Shape := ⟨2, ![32, 1]⟩
abbrev S32x4x1024x1024 : Shape := ⟨4, ![32, 4, 1024, 1024]⟩
abbrev S32x1x1024x1024 : Shape := ⟨4, ![32, 1, 1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8x4x1024x1024, .f32⟩
  | .hbm, ⟨1, _⟩ => ⟨S8x1024x1024, .f32⟩
  | .hbm, ⟨2, _⟩ => ⟨S32x1024x1024, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x4x1024x1024, .f32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S32x1, .i32⟩
  | .hbm, ⟨22, _⟩ => ⟨S32x1024x1024, .f32⟩
  | .hbm, ⟨23, _⟩ => ⟨S32x1x1024x1024, .f32⟩
  | .hbm, ⟨24, _⟩ => ⟨S32x4x1024x1024, .f32⟩
  | .hbm, ⟨25, _⟩ => ⟨S32x4x1024x1024, .f32⟩
  | .hbm, ⟨26, _⟩ => ⟨S32x1x1024x1024, .f32⟩
  | .hbm, ⟨27, _⟩ => ⟨S32x4x1024x1024, .f32⟩
  | .hbm, ⟨28, _⟩ => ⟨S32x4x1024x1024, .f32⟩
  | .hbm, ⟨29, _⟩ => ⟨S_, .f32⟩
  | .hbm, ⟨30, _⟩ => ⟨S8x4x1024x1024, .f32⟩
  | .hbm, ⟨31, _⟩ => ⟨S32x1, .i32⟩
  | .hbm, ⟨32, _⟩ => ⟨S8x4x1024x1024, .f32⟩
  | _, _ => ⟨S8x4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x1024x1024_S32x1x1024x1024_0_2_3 : S32x1024x1024.BroadcastsInDim S32x1x1024x1024 (![0, 2, 3] : Fin 3 → Fin S32x1x1024x1024.rank)
  bcast_S32x1x1024x1024_S32x4x1024x1024_0_1_2_3 : S32x1x1024x1024.BroadcastsInDim S32x4x1024x1024 (![0, 1, 2, 3] : Fin 4 → Fin S32x4x1024x1024.rank)
  bcast_S_S8x4x1024x1024 : S_.BroadcastsInDim S8x4x1024x1024 (![] : Fin 0 → Fin S8x4x1024x1024.rank)
  gather_S8x4x1024x1024_S32x1_S32x4x1024x1024_123_0_n_n_0_1_1410241024_wf : GatherDims.WF S8x4x1024x1024 S32x1 S32x4x1024x1024 [1, 2, 3] [0] [] [0] [] 1 ![1, 4, 1024, 1024]
  gather_S8x1024x1024_S32x1_S32x1024x1024_12_0_n_n_0_1_110241024_wf : GatherDims.WF S8x1024x1024 S32x1 S32x1024x1024 [1, 2] [0] [] [0] [] 1 ![1, 1024, 1024]
  scatter_S8x4x1024x1024_S32x1_S32x4x1024x1024_123_0_0_1_wf : ScatterDims.WF S8x4x1024x1024 S32x1 S32x4x1024x1024 [1, 2, 3] [0] [0] 1

variable [Facts₀]

def gather_S8x4x1024x1024_S32x1_S32x4x1024x1024_123_0_n_n_0_1_1410241024 : GatherDims S8x4x1024x1024 S32x1 S32x4x1024x1024 where
  offsetDims := [1, 2, 3]
  collapsedSliceDims := [0]
  operandBatchingDims := []
  startIndicesBatchingDims := []
  startIndexMap := [0]
  indexVectorDim := 1
  sliceSizes := ![1, 4, 1024, 1024]
  wf := gather_S8x4x1024x1024_S32x1_S32x4x1024x1024_123_0_n_n_0_1_1410241024_wf
def gather_S8x1024x1024_S32x1_S32x1024x1024_12_0_n_n_0_1_110241024 : GatherDims S8x1024x1024 S32x1 S32x1024x1024 where
  offsetDims := [1, 2]
  collapsedSliceDims := [0]
  operandBatchingDims := []
  startIndicesBatchingDims := []
  startIndexMap := [0]
  indexVectorDim := 1
  sliceSizes := ![1, 1024, 1024]
  wf := gather_S8x1024x1024_S32x1_S32x1024x1024_12_0_n_n_0_1_110241024_wf
def scatter_S8x4x1024x1024_S32x1_S32x4x1024x1024_123_0_0_1 : ScatterDims S8x4x1024x1024 S32x1 S32x4x1024x1024 where
  updateWindowDims := [1, 2, 3]
  insertedWindowDims := [0]
  scatterDimsToOperandDims := [0]
  indexVectorDim := 1
  wf := scatter_S8x4x1024x1024_S32x1_S32x4x1024x1024_123_0_0_1_wf

class Facts : Prop extends Facts₀ where

variable [Facts]
-- ==== Proof.Spec.lean ====
/-
  The function both programs compute. Nodes 0..7 each carry a spike array [4, 1024, 1024] (as one [8, 4, 1024, 1024])
  and a mask [1024, 1024]; edge e (of 32) has a source node src[e], a destination node dst[e] and a weight
  [1024, 1024]. The signal of edge e at (b, h, w) is spikes[src e, b, h, w] · masks[src e, h, w] · weights[e, h, w], and
  the result at (n, b, h, w) is the sum of the signals of the edges whose destination is n — an edge whose
  destination is not n adds zero. A node is named by a 32-bit word; `node` reads it modulo 8, which is the word's own
  value when it lies in [0, 8).
-/
import Idealize.ShloMosaic.PureOps.Ideal
import Idealize.ShloMosaic.Lib.ValueIdx

noncomputable section

namespace Cert.Axon

open Idealize.ShloMosaic Idealize.ShloMosaic.ValueIdx

/-- The shapes of the arrays: spikes and result; masks; weights; an edge table. -/
abbrev SA : Shape := ⟨4, ![8, 4, 1024, 1024]⟩
abbrev SM : Shape := ⟨3, ![8, 1024, 1024]⟩
abbrev SW : Shape := ⟨3, ![32, 1024, 1024]⟩
abbrev ST : Shape := ⟨1, ![32]⟩

/-- The node a word names. -/
def node (w : BitVec 32) : Fin 8 := ⟨w.toNat % 8, Nat.mod_lt _ (by decide)⟩

theorem node_val_of_lt {w : BitVec 32} (h : w.toNat < 8) : (node w).val = w.toNat := Nat.mod_eq_of_lt h

/-- Edge `e`'s signal at batch `b`, row `h`, column `w`. -/
def signal (spk : SA.Idx → EReal) (msk : SM.Idx → EReal) (wts : SW.Idx → EReal) (src : ST.Idx → BitVec 32)
    (e : Fin 32) (b : Fin 4) (h w : Fin 1024) : EReal :=
  spk (ix4 (node (src (ix1 e))) b h w) * msk (ix3 (node (src (ix1 e))) h w) * wts (ix3 e h w)

/-- The result: at node `i 0` the sum of the signals of the edges that end there. -/
def G (spk : SA.Idx → EReal) (msk : SM.Idx → EReal) (wts : SW.Idx → EReal) (src dst : ST.Idx → BitVec 32) :
    SA.Idx → EReal :=
  fun i => ∑ e : Fin 32, if (dst (ix1 e)).toNat = (i 0).val then signal spk msk wts src e (i 1) (i 2) (i 3) else 0

/-- The shapes of one grid point's blocks: 32 rows of the 1024 (spikes and result; masks; weights). -/
abbrev BA : Shape := ⟨4, ![8, 4, 32, 1024]⟩
abbrev BM : Shape := ⟨3, ![8, 32, 1024]⟩
abbrev BW : Shape := ⟨3, ![32, 32, 1024]⟩

/-- The same sum over one grid point's blocks: rows `h` range over the point's 32 rows. -/
def Gblock (spk : BA.Idx → EReal) (msk : BM.Idx → EReal) (wts : BW.Idx → EReal) (src dst : ST.Idx → BitVec 32) :
    BA.Idx → EReal :=
  fun y => ∑ e : Fin 32, if (dst (ix1 e)).toNat = (y 0).val then
    spk (ix4 (node (src (ix1 e))) (y 1) (y 2) (y 3)) * msk (ix3 (node (src (ix1 e))) (y 2) (y 3)) * wts (ix3 e (y 2) (y 3))
  else 0

/-- Every edge's two words name nodes: both lie in [0, 8). -/
def InRange (src dst : ST.Idx → BitVec 32) : Prop :=
  ∀ e : Fin 32, (src (ix1 e)).toNat < 8 ∧ (dst (ix1 e)).toNat < 8

end Cert.Axon

end
-- ==== Proof.IndexRange.lean ====
/-
  The precondition read at the edge tables: it says, beside the finiteness of the float inputs, that every word of
  the source table and of the destination table is at least 0 and less than 8 as a signed integer; such a word's
  unsigned value is below 8.
-/
import proofs.«415922_j3796751089943_1_alg».proof.Pre_finite_inputs
import proofs.«415922_j3796751089943_1_alg».proof.Proof.Spec
import Idealize.ShloMosaic.Lib.ReduceAll

noncomputable section

namespace Cert.Axon

open Idealize.ShloMosaic Idealize.ShloMosaic.ValueIdx

/-- The shape of rank 0 has exactly one index. -/
instance subsingleton_scalar_idx : Subsingleton Cert.Pre_finite_inputs.S_.Idx :=
  ⟨fun a b => funext fun d => d.elim0⟩

/-- A word that is at least 0 and less than 8 as a signed integer has unsigned value below 8: being nonnegative
    signed, its signed value is its unsigned one. -/
theorem toNat_lt_eight (w : BitVec 32) (h0 : IntOp.cmpi .sge w 0#32 = 1#1) (h8 : IntOp.cmpi .slt w 8#32 = 1#1) :
    w.toNat < 8 := by
  rw [IntOp.cmpi_sge, show (0#32 : BitVec 32).toInt = 0 from by decide] at h0
  rw [IntOp.cmpi_slt, show (8#32 : BitVec 32).toInt = 8 from by decide] at h8
  have hw := w.isLt
  unfold BitVec.toInt at h0 h8
  split at h8 <;> omega

/-- Under the precondition every edge's source and destination words lie in [0, 8). -/
theorem inRange_of_pre {F : FTy → Type} [FloatOps F] [Cert.Pre_finite_inputs.Facts]
    (a0 : FVec F Cert.Pre_finite_inputs.S8x4x1024x1024 .f32) (a1 : FVec F Cert.Pre_finite_inputs.S8x1024x1024 .f32)
    (a2 : FVec F Cert.Pre_finite_inputs.S32x1024x1024 .f32) (a3 a4 : IVec Cert.Pre_finite_inputs.S32 32)
    (h : Cert.Pre_finite_inputs.fn (F := F) a0 a1 a2 a3 a4 = fun _ => 1#1) : InRange a3 a4 := by
  -- the precondition at its one index: a conjunction of five all-reductions, the last two over the edge tables
  have e := congrFun h ix0
  unfold Cert.Pre_finite_inputs.fn Cert.Pre_finite_inputs.fn_part1 at e
  dsimp only at e
  change IntOp.andi (IntOp.andi _ (Host.reduce IntOp.andi _ _ _ _ ix0)) (Host.reduce IntOp.andi _ _ _ _ ix0) = 1#1 at e
  rw [IntOp.andi_eq_one, IntOp.andi_eq_one] at e
  obtain ⟨⟨-, h3⟩, h4⟩ := e
  intro k
  -- an all-reduction by `and` that is 1 had a 1 at every lane; lane k holds the two signed comparisons of word k
  have l3 := Host.reduce_andi_all _ _ _ _ _ h3 (ix1 k)
  have l4 := Host.reduce_andi_all _ _ _ _ _ h4 (ix1 k)
  change IntOp.andi (IntOp.cmpi .sge (a3 (ix1 k)) 0#32) (IntOp.cmpi .slt (a3 (ix1 k)) 8#32) = 1#1 at l3
  change IntOp.andi (IntOp.cmpi .sge (a4 (ix1 k)) 0#32) (IntOp.cmpi .slt (a4 (ix1 k)) 8#32) = 1#1 at l4
  rw [IntOp.andi_eq_one] at l3 l4
  exact ⟨toNat_lt_eight _ l3.1 l3.2, toNat_lt_eight _ l4.1 l4.2⟩

end Cert.Axon

end
-- ==== Proof.TableRangeKernel.lean ====
/-
  The generated frame of this program holds under two side conditions on the edge tables the launch memory holds.
  The pipeline's condition is empty here (no block index reads a table). The body's conditions say, for each of the
  32 edges, that the slab of the 8-slab scratch array it reads at the edge's source word, and the slab it updates at
  the edge's destination word, lie inside the array: the word, read unsigned, is below 8. Both follow when every
  word of the two tables lies in [0, 8).
-/
import proofs.«415922_j3796751089943_1_alg».proof.Proof.Gen.Kernel.Frame
import proofs.«415922_j3796751089943_1_alg».proof.Proof.Spec

set_option maxRecDepth 16384

noncomputable section

namespace Cert.Kernel.TableRange

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- No block index of this pipeline reads a table: its side condition is empty. -/
theorem ok : Ok m := trivial

/-- The one-word rectangle placed at offset `e` of a 32-word table sends its single position to index `e`:
    on the one axis the coordinate is `off 0 + 1 * 0`. -/
theorem unit_idx (e : Fin 32) (off : Fin 1 → Nat) (hoff : off 0 = e.val)
    (inb : ∀ a, off a + S1.size a ≤ S32.size a) (h1 : 0 < S1.numel) :
    (Rect.unit (s := S32) off S1.size inb).idx (Shape.Idx.first h1) = ix1 e := by
  funext a
  match a with
  | ⟨0, _⟩ =>
    apply Fin.ext
    show off 0 + 1 * 0 = e.val
    omega

/-- The word read at offset `e` of the source table is the launch memory's source word of edge `e`: reading through
    the whole table is the table's contents at the rectangle's index. -/
theorem src_word (e : Fin 32) (off : Fin 1 → Nat) (hoff : off 0 = e.val)
    (inb : ∀ a, off a + S1.size a ≤ S32.size a) (h1 : 0 < S1.numel) :
    tbM0_0.view.readAt (Elt F) (Rect.unit (s := S32) off S1.size inb).toLoadRect (tbl m 0) (Shape.Idx.first h1)
      = m (((0 : Dev nD) : Thread nD τ).loc main_arg3) (ix1 e) :=
  congrArg (m (((0 : Dev nD) : Thread nD τ).loc main_arg3)) (unit_idx e off hoff inb h1)

/-- The same for the destination table. -/
theorem dst_word (e : Fin 32) (off : Fin 1 → Nat) (hoff : off 0 = e.val)
    (inb : ∀ a, off a + S1.size a ≤ S32.size a) (h1 : 0 < S1.numel) :
    tbM0_1.view.readAt (Elt F) (Rect.unit (s := S32) off S1.size inb).toLoadRect (tbl m 1) (Shape.Idx.first h1)
      = m (((0 : Dev nD) : Thread nD τ).loc main_arg4) (ix1 e) :=
  congrArg (m (((0 : Dev nD) : Thread nD τ).loc main_arg4)) (unit_idx e off hoff inb h1)

/-- The slab of the 8-slab array at a word below 8 lies inside the array: on the slab axis `w + 1 ≤ 8`, on the other
    three axes the slab is the whole extent. -/
theorem slab_inb (w : BitVec 32) (hw : w.toNat < 8) :
    ∀ a, (![(Scalar.indexCast w).toNat, 0, 0, 0] : Fin 4 → Nat) a + S1x4x32x1024.size a ≤ S8x4x32x1024.size a := by
  intro a
  have hc : (Scalar.indexCast w).toNat = w.toNat := rfl
  fin_cases a <;> simp [hc, S1x4x32x1024, S8x4x32x1024] <;> omega

/-- The 64 conditions the body assumes, from the range of the tables' words. -/
theorem hyps (hO : Ok m)
    (hr : Cert.Axon.InRange (m (((0 : Dev nD) : Thread nD τ).loc main_arg3)) (m (((0 : Dev nD) : Thread nD τ).loc main_arg4))) :
    Hyps m hO := by
  intro c t
  -- edge by edge: the source word's slab, then the destination word's slab
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [src_word m 0 _ rfl]; exact slab_inb _ (hr 0).1
  · rw [dst_word m 0 _ rfl]; exact slab_inb _ (hr 0).2
  · rw [src_word m 1 _ rfl]; exact slab_inb _ (hr 1).1
  · rw [dst_word m 1 _ rfl]; exact slab_inb _ (hr 1).2
  · rw [src_word m 2 _ rfl]; exact slab_inb _ (hr 2).1
  · rw [dst_word m 2 _ rfl]; exact slab_inb _ (hr 2).2
  · rw [src_word m 3 _ rfl]; exact slab_inb _ (hr 3).1
  · rw [dst_word m 3 _ rfl]; exact slab_inb _ (hr 3).2
  · rw [src_word m 4 _ rfl]; exact slab_inb _ (hr 4).1
  · rw [dst_word m 4 _ rfl]; exact slab_inb _ (hr 4).2
  · rw [src_word m 5 _ rfl]; exact slab_inb _ (hr 5).1
  · rw [dst_word m 5 _ rfl]; exact slab_inb _ (hr 5).2
  · rw [src_word m 6 _ rfl]; exact slab_inb _ (hr 6).1
  · rw [dst_word m 6 _ rfl]; exact slab_inb _ (hr 6).2
  · rw [src_word m 7 _ rfl]; exact slab_inb _ (hr 7).1
  · rw [dst_word m 7 _ rfl]; exact slab_inb _ (hr 7).2
  · rw [src_word m 8 _ rfl]; exact slab_inb _ (hr 8).1
  · rw [dst_word m 8 _ rfl]; exact slab_inb _ (hr 8).2
  · rw [src_word m 9 _ rfl]; exact slab_inb _ (hr 9).1
  · rw [dst_word m 9 _ rfl]; exact slab_inb _ (hr 9).2
  · rw [src_word m 10 _ rfl]; exact slab_inb _ (hr 10).1
  · rw [dst_word m 10 _ rfl]; exact slab_inb _ (hr 10).2
  · rw [src_word m 11 _ rfl]; exact slab_inb _ (hr 11).1
  · rw [dst_word m 11 _ rfl]; exact slab_inb _ (hr 11).2
  · rw [src_word m 12 _ rfl]; exact slab_inb _ (hr 12).1
  · rw [dst_word m 12 _ rfl]; exact slab_inb _ (hr 12).2
  · rw [src_word m 13 _ rfl]; exact slab_inb _ (hr 13).1
  · rw [dst_word m 13 _ rfl]; exact slab_inb _ (hr 13).2
  · rw [src_word m 14 _ rfl]; exact slab_inb _ (hr 14).1
  · rw [dst_word m 14 _ rfl]; exact slab_inb _ (hr 14).2
  · rw [src_word m 15 _ rfl]; exact slab_inb _ (hr 15).1
  · rw [dst_word m 15 _ rfl]; exact slab_inb _ (hr 15).2
  · rw [src_word m 16 _ rfl]; exact slab_inb _ (hr 16).1
  · rw [dst_word m 16 _ rfl]; exact slab_inb _ (hr 16).2
  · rw [src_word m 17 _ rfl]; exact slab_inb _ (hr 17).1
  · rw [dst_word m 17 _ rfl]; exact slab_inb _ (hr 17).2
  · rw [src_word m 18 _ rfl]; exact slab_inb _ (hr 18).1
  · rw [dst_word m 18 _ rfl]; exact slab_inb _ (hr 18).2
  · rw [src_word m 19 _ rfl]; exact slab_inb _ (hr 19).1
  · rw [dst_word m 19 _ rfl]; exact slab_inb _ (hr 19).2
  · rw [src_word m 20 _ rfl]; exact slab_inb _ (hr 20).1
  · rw [dst_word m 20 _ rfl]; exact slab_inb _ (hr 20).2
  · rw [src_word m 21 _ rfl]; exact slab_inb _ (hr 21).1
  · rw [dst_word m 21 _ rfl]; exact slab_inb _ (hr 21).2
  · rw [src_word m 22 _ rfl]; exact slab_inb _ (hr 22).1
  · rw [dst_word m 22 _ rfl]; exact slab_inb _ (hr 22).2
  · rw [src_word m 23 _ rfl]; exact slab_inb _ (hr 23).1
  · rw [dst_word m 23 _ rfl]; exact slab_inb _ (hr 23).2
  · rw [src_word m 24 _ rfl]; exact slab_inb _ (hr 24).1
  · rw [dst_word m 24 _ rfl]; exact slab_inb _ (hr 24).2
  · rw [src_word m 25 _ rfl]; exact slab_inb _ (hr 25).1
  · rw [dst_word m 25 _ rfl]; exact slab_inb _ (hr 25).2
  · rw [src_word m 26 _ rfl]; exact slab_inb _ (hr 26).1
  · rw [dst_word m 26 _ rfl]; exact slab_inb _ (hr 26).2
  · rw [src_word m 27 _ rfl]; exact slab_inb _ (hr 27).1
  · rw [dst_word m 27 _ rfl]; exact slab_inb _ (hr 27).2
  · rw [src_word m 28 _ rfl]; exact slab_inb _ (hr 28).1
  · rw [dst_word m 28 _ rfl]; exact slab_inb _ (hr 28).2
  · rw [src_word m 29 _ rfl]; exact slab_inb _ (hr 29).1
  · rw [dst_word m 29 _ rfl]; exact slab_inb _ (hr 29).2
  · rw [src_word m 30 _ rfl]; exact slab_inb _ (hr 30).1
  · rw [dst_word m 30 _ rfl]; exact slab_inb _ (hr 30).2
  · rw [src_word m 31 _ rfl]; exact slab_inb _ (hr 31).1
  · rw [dst_word m 31 _ rfl]; exact slab_inb _ (hr 31).2

end Cert.Kernel.TableRange

end
-- ==== Proof.TableRangeKernelIdeal.lean ====
/-
  The generated frame of this program holds under two side conditions on the edge tables the launch memory holds.
  The pipeline's condition is empty here (no block index reads a table). The body's conditions say, for each of the
  32 edges, that the slab of the 8-slab scratch array it reads at the edge's source word, and the slab it updates at
  the edge's destination word, lie inside the array: the word, read unsigned, is below 8. Both follow when every
  word of the two tables lies in [0, 8).
-/
import proofs.«415922_j3796751089943_1_alg».proof.Proof.Gen.KernelIdeal.Frame
import proofs.«415922_j3796751089943_1_alg».proof.Proof.Spec

set_option maxRecDepth 16384

noncomputable section

namespace Cert.KernelIdeal.TableRange

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- No block index of this pipeline reads a table: its side condition is empty. -/
theorem ok : Ok m := trivial

/-- The one-word rectangle placed at offset `e` of a 32-word table sends its single position to index `e`:
    on the one axis the coordinate is `off 0 + 1 * 0`. -/
theorem unit_idx (e : Fin 32) (off : Fin 1 → Nat) (hoff : off 0 = e.val)
    (inb : ∀ a, off a + S1.size a ≤ S32.size a) (h1 : 0 < S1.numel) :
    (Rect.unit (s := S32) off S1.size inb).idx (Shape.Idx.first h1) = ix1 e := by
  funext a
  match a with
  | ⟨0, _⟩ =>
    apply Fin.ext
    show off 0 + 1 * 0 = e.val
    omega

/-- The word read at offset `e` of the source table is the launch memory's source word of edge `e`: reading through
    the whole table is the table's contents at the rectangle's index. -/
theorem src_word (e : Fin 32) (off : Fin 1 → Nat) (hoff : off 0 = e.val)
    (inb : ∀ a, off a + S1.size a ≤ S32.size a) (h1 : 0 < S1.numel) :
    tbM0_0.view.readAt (Elt F) (Rect.unit (s := S32) off S1.size inb).toLoadRect (tbl m 0) (Shape.Idx.first h1)
      = m (((0 : Dev nD) : Thread nD τ).loc main_arg3) (ix1 e) :=
  congrArg (m (((0 : Dev nD) : Thread nD τ).loc main_arg3)) (unit_idx e off hoff inb h1)

/-- The same for the destination table. -/
theorem dst_word (e : Fin 32) (off : Fin 1 → Nat) (hoff : off 0 = e.val)
    (inb : ∀ a, off a + S1.size a ≤ S32.size a) (h1 : 0 < S1.numel) :
    tbM0_1.view.readAt (Elt F) (Rect.unit (s := S32) off S1.size inb).toLoadRect (tbl m 1) (Shape.Idx.first h1)
      = m (((0 : Dev nD) : Thread nD τ).loc main_arg4) (ix1 e) :=
  congrArg (m (((0 : Dev nD) : Thread nD τ).loc main_arg4)) (unit_idx e off hoff inb h1)

/-- The slab of the 8-slab array at a word below 8 lies inside the array: on the slab axis `w + 1 ≤ 8`, on the other
    three axes the slab is the whole extent. -/
theorem slab_inb (w : BitVec 32) (hw : w.toNat < 8) :
    ∀ a, (![(Scalar.indexCast w).toNat, 0, 0, 0] : Fin 4 → Nat) a + S1x4x32x1024.size a ≤ S8x4x32x1024.size a := by
  intro a
  have hc : (Scalar.indexCast w).toNat = w.toNat := rfl
  fin_cases a <;> simp [hc, S1x4x32x1024, S8x4x32x1024] <;> omega

/-- The 64 conditions the body assumes, from the range of the tables' words. -/
theorem hyps (hO : Ok m)
    (hr : Cert.Axon.InRange (m (((0 : Dev nD) : Thread nD τ).loc main_arg3)) (m (((0 : Dev nD) : Thread nD τ).loc main_arg4))) :
    Hyps m hO := by
  intro c t
  -- edge by edge: the source word's slab, then the destination word's slab
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · rw [src_word m 0 _ rfl]; exact slab_inb _ (hr 0).1
  · rw [dst_word m 0 _ rfl]; exact slab_inb _ (hr 0).2
  · rw [src_word m 1 _ rfl]; exact slab_inb _ (hr 1).1
  · rw [dst_word m 1 _ rfl]; exact slab_inb _ (hr 1).2
  · rw [src_word m 2 _ rfl]; exact slab_inb _ (hr 2).1
  · rw [dst_word m 2 _ rfl]; exact slab_inb _ (hr 2).2
  · rw [src_word m 3 _ rfl]; exact slab_inb _ (hr 3).1
  · rw [dst_word m 3 _ rfl]; exact slab_inb _ (hr 3).2
  · rw [src_word m 4 _ rfl]; exact slab_inb _ (hr 4).1
  · rw [dst_word m 4 _ rfl]; exact slab_inb _ (hr 4).2
  · rw [src_word m 5 _ rfl]; exact slab_inb _ (hr 5).1
  · rw [dst_word m 5 _ rfl]; exact slab_inb _ (hr 5).2
  · rw [src_word m 6 _ rfl]; exact slab_inb _ (hr 6).1
  · rw [dst_word m 6 _ rfl]; exact slab_inb _ (hr 6).2
  · rw [src_word m 7 _ rfl]; exact slab_inb _ (hr 7).1
  · rw [dst_word m 7 _ rfl]; exact slab_inb _ (hr 7).2
  · rw [src_word m 8 _ rfl]; exact slab_inb _ (hr 8).1
  · rw [dst_word m 8 _ rfl]; exact slab_inb _ (hr 8).2
  · rw [src_word m 9 _ rfl]; exact slab_inb _ (hr 9).1
  · rw [dst_word m 9 _ rfl]; exact slab_inb _ (hr 9).2
  · rw [src_word m 10 _ rfl]; exact slab_inb _ (hr 10).1
  · rw [dst_word m 10 _ rfl]; exact slab_inb _ (hr 10).2
  · rw [src_word m 11 _ rfl]; exact slab_inb _ (hr 11).1
  · rw [dst_word m 11 _ rfl]; exact slab_inb _ (hr 11).2
  · rw [src_word m 12 _ rfl]; exact slab_inb _ (hr 12).1
  · rw [dst_word m 12 _ rfl]; exact slab_inb _ (hr 12).2
  · rw [src_word m 13 _ rfl]; exact slab_inb _ (hr 13).1
  · rw [dst_word m 13 _ rfl]; exact slab_inb _ (hr 13).2
  · rw [src_word m 14 _ rfl]; exact slab_inb _ (hr 14).1
  · rw [dst_word m 14 _ rfl]; exact slab_inb _ (hr 14).2
  · rw [src_word m 15 _ rfl]; exact slab_inb _ (hr 15).1
  · rw [dst_word m 15 _ rfl]; exact slab_inb _ (hr 15).2
  · rw [src_word m 16 _ rfl]; exact slab_inb _ (hr 16).1
  · rw [dst_word m 16 _ rfl]; exact slab_inb _ (hr 16).2
  · rw [src_word m 17 _ rfl]; exact slab_inb _ (hr 17).1
  · rw [dst_word m 17 _ rfl]; exact slab_inb _ (hr 17).2
  · rw [src_word m 18 _ rfl]; exact slab_inb _ (hr 18).1
  · rw [dst_word m 18 _ rfl]; exact slab_inb _ (hr 18).2
  · rw [src_word m 19 _ rfl]; exact slab_inb _ (hr 19).1
  · rw [dst_word m 19 _ rfl]; exact slab_inb _ (hr 19).2
  · rw [src_word m 20 _ rfl]; exact slab_inb _ (hr 20).1
  · rw [dst_word m 20 _ rfl]; exact slab_inb _ (hr 20).2
  · rw [src_word m 21 _ rfl]; exact slab_inb _ (hr 21).1
  · rw [dst_word m 21 _ rfl]; exact slab_inb _ (hr 21).2
  · rw [src_word m 22 _ rfl]; exact slab_inb _ (hr 22).1
  · rw [dst_word m 22 _ rfl]; exact slab_inb _ (hr 22).2
  · rw [src_word m 23 _ rfl]; exact slab_inb _ (hr 23).1
  · rw [dst_word m 23 _ rfl]; exact slab_inb _ (hr 23).2
  · rw [src_word m 24 _ rfl]; exact slab_inb _ (hr 24).1
  · rw [dst_word m 24 _ rfl]; exact slab_inb _ (hr 24).2
  · rw [src_word m 25 _ rfl]; exact slab_inb _ (hr 25).1
  · rw [dst_word m 25 _ rfl]; exact slab_inb _ (hr 25).2
  · rw [src_word m 26 _ rfl]; exact slab_inb _ (hr 26).1
  · rw [dst_word m 26 _ rfl]; exact slab_inb _ (hr 26).2
  · rw [src_word m 27 _ rfl]; exact slab_inb _ (hr 27).1
  · rw [dst_word m 27 _ rfl]; exact slab_inb _ (hr 27).2
  · rw [src_word m 28 _ rfl]; exact slab_inb _ (hr 28).1
  · rw [dst_word m 28 _ rfl]; exact slab_inb _ (hr 28).2
  · rw [src_word m 29 _ rfl]; exact slab_inb _ (hr 29).1
  · rw [dst_word m 29 _ rfl]; exact slab_inb _ (hr 29).2
  · rw [src_word m 30 _ rfl]; exact slab_inb _ (hr 30).1
  · rw [dst_word m 30 _ rfl]; exact slab_inb _ (hr 30).2
  · rw [src_word m 31 _ rfl]; exact slab_inb _ (hr 31).1
  · rw [dst_word m 31 _ rfl]; exact slab_inb _ (hr 31).2

end Cert.KernelIdeal.TableRange

end
-- ==== Proof.PointValue.lean ====
/-
  What one grid point leaves in the result window's block, at the ideal instance.

  The body first stores, whole, the products spikes · masks of the point's blocks (the "modulated" array, one slab per
  node) and a zero accumulator of the same shape. Then, edge by edge (e = 0 … 31, in order), it reads the modulated
  slab at the source word src[e], the weight plane e, and the accumulator slab at the destination word dst[e], and
  stores accumulator-slab + modulated-slab · weights back at dst[e]. At the end the accumulator is stored as the
  result block.

  A slab store at dst[e] changes exactly the positions whose node coordinate is dst[e] and leaves every other
  position as the earlier stores left it. So after the first k edges position (n, b, h, w) of the accumulator holds
  the sum, over the edges e < k with dst[e] = n, of modulated[src e, b, h, w] · weights[e, h, w]: by induction on k,
  each step adding the k-th edge's term where dst[k] = n and zero elsewhere. At k = 32 this is the edge sum over the
  point's blocks. The order of the additions is immaterial: only commutativity and associativity of + on the
  extended reals are used.
-/
import proofs.«415922_j3796751089943_1_alg».proof.Proof.Gen.KernelIdeal.Frame
import proofs.«415922_j3796751089943_1_alg».proof.Proof.Spec
import proofs.«415922_j3796751089943_1_alg».proof.Proof.TableRangeKernelIdeal
import Idealize.ShloMosaic.Lib.Pipeline.Value
import Idealize.ShloMosaic.Lib.Pipeline.FrameBody
import Idealize.ShloMosaic.Lib.ValueIdx
import Idealize.ShloMosaic.PureOps.Ideal.Laws

set_option maxRecDepth 65536

noncomputable section

namespace Cert.KernelIdeal.PointValue

open Cert.KernelIdeal Cert.KernelIdeal.Gen
open Idealize.ShloMosaic Idealize.ShloMosaic.TcCoe Idealize.ShloMosaic.ValueIdx Idealize.SL.Sem

/-! ## The accumulator's stores as one recursion on the number of edges done -/

section Stores

variable {F : FTy → Type} [FloatOps F]

/-- The offsets of the slab a word names: the word on the node axis, zero on the others. -/
abbrev offW (w : BitVec 32) : Fin 4 → Nat := ![(Scalar.indexCast w).toNat, 0, 0, 0]

/-- The slab a word names lies inside the 8-slab array. -/
abbrev chkW (w : BitVec 32) : Prop := ∀ a, offW w a + S1x4x32x1024.size a ≤ S8x4x32x1024.size a

/-- One edge's update of an accumulator slab `av`: `av + ms · ws`, the weight plane `ws` repeated over the batch
    axis, with the changes of shape the body makes around it. -/
def upd (ms : Vec F S1x4x32x1024 .f32) (ws : Vec F S1x32x1024 .f32) (av : Vec F S1x4x32x1024 .f32) : FVec F S1x4x32x1024 .f32 :=
  shapeCast S1x4x32x1024 (addf (shapeCast S4x32x1024 av shapeCasts_S1x4x32x1024_S4x32x1024)
    (mulf (shapeCast S4x32x1024 ms shapeCasts_S1x4x32x1024_S4x32x1024)
      (broadcastTo S4x32x1024 (shapeCast S1x32x1024 (shapeCast S32x1024 ws shapeCasts_S1x32x1024_S32x1024) shapeCasts_S32x1024_S1x32x1024) broadcasts_S1x32x1024_S4x32x1024)))
    shapeCasts_S4x32x1024_S1x4x32x1024

variable (c : Dev nD) (arg5 : Memref sig .tc .vmem S32x32x1024 .f32) (harg5 : arg5.IsWhole)
  (arg7 arg8 : Memref sig .tc .vmem S8x4x32x1024 .f32)
  (modL : List (View.Piece (Elt F) S8x4x32x1024 .f32))
  (x2 : Vec F S32x32x1024 .f32) (xt0 : TbBuf0 (F := F) c tbM0_0) (xt1 : TbBuf0 (F := F) c tbM0_1)

theorem inbT (e : Fin 32) : ∀ a, (![e.val] : Fin 1 → Nat) a + S1.size a ≤ S32.size a := by
  intro a; have := e.isLt; fin_cases a; show e.val + 1 ≤ 32; omega

theorem inbWt (e : Fin 32) : ∀ a, (![e.val, 0, 0] : Fin 3 → Nat) a + S1x32x1024.size a ≤ S32x32x1024.size a := by
  intro a; have := e.isLt; fin_cases a <;> simp [S1x32x1024, S32x32x1024] <;> omega

/-- Edge `e`'s source word and destination word, as the body reads them off the two tables. -/
def word0 (e : Fin 32) : BitVec 32 :=
  tbM0_0.view.readAt (Elt F) (Rect.unit (s := S32) ![e.val] S1.size (inbT e)).toLoadRect xt0 (Shape.Idx.first (numel1_S1.symm ▸ Nat.one_pos))
def word1 (e : Fin 32) : BitVec 32 :=
  tbM0_1.view.readAt (Elt F) (Rect.unit (s := S32) ![e.val] S1.size (inbT e)).toLoadRect xt1 (Shape.Idx.first (numel1_S1.symm ▸ Nat.one_pos))

variable (hS : ∀ e : Fin 32, chkW (word0 (F := F) c xt0 e)) (hD : ∀ e : Fin 32, chkW (word1 (F := F) c xt1 e))

/-- The modulated slab edge `e` reads (the modulated array being what the stores `modL` left), and its weight plane. -/
def modLoad (e : Fin 32) : Vec F S1x4x32x1024 .f32 :=
  View.readAt (Elt F) arg7.view (Rect.unit (s := S8x4x32x1024) (offW (word0 (F := F) c xt0 e)) S1x4x32x1024.size (hS e)).toLoadRect
    (arg7.view.writes (Elt F) arg7.view.junk modL)
def wLoad (e : Fin 32) : Vec F S1x32x1024 .f32 :=
  View.readAt (Elt F) arg5.view (Rect.unit (s := S32x32x1024) ![e.val, 0, 0] S1x32x1024.size (inbWt e)).toLoadRect (harg5.unread x2)

/-- The accumulator's stores after `k` edges, newest first: the zero fill, then one slab store per edge, each
    edge's payload computed from the accumulator as the earlier stores left it. -/
def accP : (k : ℕ) → k ≤ 32 → List (View.Piece (Elt F) S8x4x32x1024 .f32)
  | 0, _ => [⟨Rect.unit (s := S8x4x32x1024) ![0, 0, 0, 0] S8x4x32x1024.size inb_S8x4x32x1024_S8x4x32x1024_0_0_0_0, k0_pay3⟩]
  | k + 1, h =>
    ⟨Rect.unit (s := S8x4x32x1024) (offW (word1 (F := F) c xt1 ⟨k, h⟩)) S1x4x32x1024.size (hD ⟨k, h⟩),
      upd (modLoad c arg7 modL xt0 hS ⟨k, h⟩) (wLoad arg5 harg5 x2 ⟨k, h⟩)
        (View.readAt (Elt F) arg8.view (Rect.unit (s := S8x4x32x1024) (offW (word1 (F := F) c xt1 ⟨k, h⟩)) S1x4x32x1024.size (hD ⟨k, h⟩)).toLoadRect
          (arg8.view.writes (Elt F) arg8.view.junk (accP k (Nat.le_of_succ_le h))))⟩
      :: accP k (Nat.le_of_succ_le h)

end Stores

/-! ## Reading the pieces at a position, on the extended reals -/

section AtIdeal

/-- A position of a one-slab block, with its (only possible) node coordinate put back, is itself. -/
theorem cons_zero_succ (j : S1x4x32x1024.Idx) :
    (Fin.cons ⟨0, Nat.one_pos⟩ (fun a : Fin 3 => j a.succ) : S1x4x32x1024.Idx) = j := by
  funext a
  refine Fin.cases ?_ (fun a' => rfl) a
  apply Fin.ext
  have := (j 0).isLt
  show 0 = (j 0).val
  have h1 : S1x4x32x1024.size 0 = 1 := rfl
  omega

/-- One edge's update at a position of the slab: accumulator + modulated · weight, the weight read at the position's
    row and column. -/
theorem upd_apply (ms : S1x4x32x1024.Idx → EReal) (ws : S1x32x1024.Idx → EReal) (av : S1x4x32x1024.Idx → EReal)
    (j : S1x4x32x1024.Idx) :
    upd (F := Ideal) ms ws av j = av j + ms j * ws (ix3 ⟨0, Nat.one_pos⟩ (j 2) (j 3)) := by
  unfold upd
  refine (shapeCast_addUnit_apply (![4, 32, 1024] : Fin 3 → Nat) _ _ j).trans ?_
  refine (addf_apply _ _ _).trans (congrArg₂ (· + ·) ?_ ((mulf_apply _ _ _).trans (congrArg₂ (· * ·) ?_ ?_)))
  · exact (shapeCast_dropUnit_apply (![4, 32, 1024] : Fin 3 → Nat) av _ _).trans (congrArg av (cons_zero_succ j))
  · exact (shapeCast_dropUnit_apply (![4, 32, 1024] : Fin 3 → Nat) ms _ _).trans (congrArg ms (cons_zero_succ j))
  · rw [shapeCast_shapeCast]
    exact broadcastTo_apply ws _ _ (ix3 ⟨0, Nat.one_pos⟩ (j 2) (j 3)) (by intro a; fin_cases a <;> rfl)

/-- A word whose slab lies inside the 8-slab array is below 8. -/
theorem toNat_lt_of_chkW {d : BitVec 32} (hd : chkW d) : d.toNat < 8 := by
  have h := hd 0
  have h1 : offW d 0 = d.toNat := rfl
  have h2 : S1x4x32x1024.size 0 = 1 := rfl
  have h3 : S8x4x32x1024.size 0 = 8 := rfl
  omega

/-- The slab a word `d` names, placed in the array: local position (0, b, h, w) sits at (d, b, h, w). -/
theorem slab_idx (d : BitVec 32) (hd : chkW d) (j : S1x4x32x1024.Idx) :
    (Rect.unit (s := S8x4x32x1024) (offW d) S1x4x32x1024.size hd).idx j = ix4 (Cert.Axon.node d) (j 1) (j 2) (j 3) := by
  have hlt := toNat_lt_of_chkW hd
  have hj : (j 0).val = 0 := by have := (j 0).isLt; have h1 : S1x4x32x1024.size 0 = 1 := rfl; omega
  funext a
  apply Fin.ext
  match a with
  | ⟨0, _⟩ => show d.toNat + 1 * (j 0).val = d.toNat % 8; rw [hj, Nat.mod_eq_of_lt hlt]; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- A load of the slab at word `d` from an array held at the stores `L` reads what those stores left there. -/
theorem slabLoad_apply (v : View sig .tc .vmem S8x4x32x1024 .f32) (d : BitVec 32) (hd : chkW d)
    (L : List (View.Piece (Elt Ideal) S8x4x32x1024 .f32)) (j : S1x4x32x1024.Idx) :
    View.readAt (Elt Ideal) v (Rect.unit (s := S8x4x32x1024) (offW d) S1x4x32x1024.size hd).toLoadRect
        (v.writes (Elt Ideal) v.junk L) j
      = View.canon L (ix4 (Cert.Axon.node d) (j 1) (j 2) (j 3)) := by
  rw [View.readAt_writes_junk_eq_canon]
  exact congrArg (View.canon L) (slab_idx d hd j)

/-- A store of the slab at word `d`, newest: positions of node `d` read its payload, the others what was there. -/
theorem canon_cons_slab (d : BitVec 32) (hd : chkW d) (w : S1x4x32x1024.Idx → EReal)
    (L : List (View.Piece (Elt Ideal) S8x4x32x1024 .f32)) (y : S8x4x32x1024.Idx) :
    View.canon ((⟨Rect.unit (s := S8x4x32x1024) (offW d) S1x4x32x1024.size hd, w⟩ : View.Piece (Elt Ideal) S8x4x32x1024 .f32) :: L) y
      = if d.toNat = (y 0).val then w (ix4 ⟨0, Nat.one_pos⟩ (y 1) (y 2) (y 3)) else View.canon L y := by
  have hlt := toNat_lt_of_chkW hd
  by_cases h : d.toNat = (y 0).val
  · rw [if_pos h]
    have hy : (Rect.unit (s := S8x4x32x1024) (offW d) S1x4x32x1024.size hd).emb (ix4 ⟨0, Nat.one_pos⟩ (y 1) (y 2) (y 3)) = y := by
      funext a
      apply Fin.ext
      match a with
      | ⟨0, _⟩ => show d.toNat + 1 * 0 = (y 0).val; omega
      | ⟨1, _⟩ => show 0 + 1 * (y 1).val = (y 1).val; omega
      | ⟨2, _⟩ => show 0 + 1 * (y 2).val = (y 2).val; omega
      | ⟨3, _⟩ => show 0 + 1 * (y 3).val = (y 3).val; omega
    have e := View.canon_cons_emb (Val := Elt Ideal) (Rect.unit (s := S8x4x32x1024) (offW d) S1x4x32x1024.size hd) w L
      (ix4 ⟨0, Nat.one_pos⟩ (y 1) (y 2) (y 3))
    rw [hy] at e
    exact e
  · rw [if_neg h]
    refine View.canon_cons_of_not_mem _ L ?_
    show y ∉ (Rect.unit (s := S8x4x32x1024) (offW d) S1x4x32x1024.size hd).set
    rw [Rect.mem_set_unit]
    intro hall
    have h0 := hall 0
    have h1 : offW d 0 = d.toNat := rfl
    have h2 : S1x4x32x1024.size 0 = 1 := rfl
    omega

end AtIdeal

/-! ## The accumulator after k edges -/

section Chain

variable (c : Dev nD) (arg5 : Memref sig .tc .vmem S32x32x1024 .f32) (harg5 : arg5.IsWhole)
  (arg7 arg8 : Memref sig .tc .vmem S8x4x32x1024 .f32)
  (modL : List (View.Piece (Elt Ideal) S8x4x32x1024 .f32))
  (x2 : S32x32x1024.Idx → EReal) (xt0 : TbBuf0 (F := Ideal) c tbM0_0) (xt1 : TbBuf0 (F := Ideal) c tbM0_1)
  (hS : ∀ e : Fin 32, chkW (word0 (F := Ideal) c xt0 e)) (hD : ∀ e : Fin 32, chkW (word1 (F := Ideal) c xt1 e))
  (M : S8x4x32x1024.Idx → EReal)

/-- The weight plane edge `e` reads is plane `e` of the weights' block. -/
theorem wLoad_apply (e : Fin 32) (j : S1x32x1024.Idx) :
    wLoad (F := Ideal) arg5 harg5 x2 e j = x2 (ix3 e (j 1) (j 2)) := by
  unfold wLoad
  rw [View.readAt_apply, harg5.read_unread]
  refine congrArg x2 ?_
  have hj : (j 0).val = 0 := by have := (j 0).isLt; have h1 : S1x32x1024.size 0 = 1 := rfl; omega
  funext a
  apply Fin.ext
  match a with
  | ⟨0, _⟩ => show e.val + 1 * (j 0).val = e.val; omega
  | ⟨1, _⟩ => show 0 + 1 * (j 1).val = (j 1).val; omega
  | ⟨2, _⟩ => show 0 + 1 * (j 2).val = (j 2).val; omega

/-- Edge `e`'s term at a position: modulated[src e, b, h, w] · weights[e, h, w]. -/
def term (e : Fin 32) (y : S8x4x32x1024.Idx) : EReal :=
  M (ix4 (Cert.Axon.node (word0 (F := Ideal) c xt0 e)) (y 1) (y 2) (y 3)) * x2 (ix3 e (y 2) (y 3))

/-- What edge `e` adds at a position: its term where the edge ends at the position's node, zero elsewhere. -/
def contrib (e : Fin 32) (y : S8x4x32x1024.Idx) : EReal :=
  if (word1 (F := Ideal) c xt1 e).toNat = (y 0).val then term c x2 xt0 M e y else 0

/-- After the first `k` edges the accumulator holds, at every position, the sum of what those edges add there. -/
theorem canon_accP (hM : ∀ y, View.canon modL y = M y) (k : ℕ) (hk : k ≤ 32) (y : S8x4x32x1024.Idx) :
    View.canon (accP (F := Ideal) c arg5 harg5 arg7 arg8 modL x2 xt0 xt1 hS hD k hk) y
      = ∑ i ∈ Finset.range k, if h : i < 32 then contrib c x2 xt0 xt1 M ⟨i, h⟩ y else 0 := by
  induction k with
  | zero =>
    rw [Finset.range_zero, Finset.sum_empty]
    show View.canon [(⟨Rect.unit (s := S8x4x32x1024) ![0, 0, 0, 0] S8x4x32x1024.size inb_S8x4x32x1024_S8x4x32x1024_0_0_0_0, k0_pay3 (F := Ideal)⟩ : View.Piece (Elt Ideal) S8x4x32x1024 .f32)] y = 0
    rw [View.canon_unit_zero (by funext a; fin_cases a <;> rfl)]
    unfold k0_pay3
    rw [shapeCast_self]
    exact Ideal.ofBits_zero_f32
  | succ k ih =>
    have hk' : k < 32 := hk
    rw [Finset.sum_range_succ, dif_pos hk', ← ih (Nat.le_of_succ_le hk)]
    show View.canon ((⟨Rect.unit (s := S8x4x32x1024) (offW (word1 (F := Ideal) c xt1 ⟨k, hk⟩)) S1x4x32x1024.size (hD ⟨k, hk⟩),
        upd (modLoad c arg7 modL xt0 hS ⟨k, hk⟩) (wLoad arg5 harg5 x2 ⟨k, hk⟩)
          (View.readAt (Elt Ideal) arg8.view (Rect.unit (s := S8x4x32x1024) (offW (word1 (F := Ideal) c xt1 ⟨k, hk⟩)) S1x4x32x1024.size (hD ⟨k, hk⟩)).toLoadRect
            (arg8.view.writes (Elt Ideal) arg8.view.junk (accP c arg5 harg5 arg7 arg8 modL x2 xt0 xt1 hS hD k (Nat.le_of_succ_le hk))))⟩
        : View.Piece (Elt Ideal) S8x4x32x1024 .f32) :: accP c arg5 harg5 arg7 arg8 modL x2 xt0 xt1 hS hD k (Nat.le_of_succ_le hk)) y = _
    rw [canon_cons_slab]
    unfold contrib
    by_cases hd : (word1 (F := Ideal) c xt1 ⟨k, hk⟩).toNat = (y 0).val
    · rw [if_pos hd, if_pos hd, upd_apply, slabLoad_apply, wLoad_apply]
      unfold modLoad
      rw [slabLoad_apply, hM]
      have hy : ix4 (Cert.Axon.node (word1 (F := Ideal) c xt1 ⟨k, hk⟩)) (y 1) (y 2) (y 3) = y := by
        funext a
        apply Fin.ext
        match a with
        | ⟨0, _⟩ => show (word1 (F := Ideal) c xt1 ⟨k, hk⟩).toNat % 8 = (y 0).val; rw [Nat.mod_eq_of_lt (toNat_lt_of_chkW (hD ⟨k, hk⟩))]; exact hd
        | ⟨1, _⟩ => rfl
        | ⟨2, _⟩ => rfl
        | ⟨3, _⟩ => rfl
      exact congrArg₂ (· + ·) (congrArg (View.canon _) hy) rfl
    · rw [if_neg hd, if_neg hd, add_zero]

end Chain

/-! ## The modulated array -/

/-- The modulated array's one store leaves spikes · masks, the mask repeated over the batch axis. -/
theorem canon_mod (c : Dev nD) (arg3 : Memref sig .tc .vmem S8x4x32x1024 .f32) (harg3 : arg3.IsWhole)
    (arg4 : Memref sig .tc .vmem S8x32x1024 .f32) (harg4 : arg4.IsWhole)
    (x0 : S8x4x32x1024.Idx → EReal) (x1 : S8x32x1024.Idx → EReal) (y : S8x4x32x1024.Idx) :
    View.canon (kernelRun0_A.sl.HS0_1 (F := Ideal) c arg3 harg3 arg4 harg4 x0 x1) y
      = x0 y * x1 (ix3 (y 0) (y 2) (y 3)) := by
  unfold kernelRun0_A.sl.HS0_1
  rw [View.canon_unit_zero (by funext a; fin_cases a <;> rfl)]
  simp only [View.readAt_eq_ld, harg3.read_unread, harg4.read_unread]
  rw [View.ld_unit_zero (S := S8x4x32x1024) (by funext a; fin_cases a <;> rfl), View.ld_unit_zero (S := S8x32x1024) (by funext a; fin_cases a <;> rfl)]
  unfold k0_pay2
  rw [shapeCast_self]
  refine (mulf_apply _ _ _).trans (congrArg (x0 y * ·) ?_)
  refine (broadcastTo_apply _ _ y (ix4 (y 0) ⟨0, Nat.one_pos⟩ (y 2) (y 3)) (by intro a; fin_cases a <;> rfl)).trans ?_
  exact shapeCast_apply x1 _ (ix4 (y 0) ⟨0, Nat.one_pos⟩ (y 2) (y 3)) (ix3 (y 0) (y 2) (y 3))
    (by rw [Shape.rowMajor_val_three, Shape.rowMajor_val_four]; show ((y 0).val * 32 + (y 2).val) * 1024 + (y 3).val = (((y 0).val * 1 + 0) * 32 + (y 2).val) * 1024 + (y 3).val; omega)

/-- A sum over the first 32 naturals of a function of the edges is the sum over the edges. -/
theorem sum_range_edges (g : Fin 32 → EReal) :
    ∑ i ∈ Finset.range 32, (if h : i < 32 then g ⟨i, h⟩ else 0) = ∑ e : Fin 32, g e := by
  rw [← Fin.sum_univ_eq_sum_range (fun i => if h : i < 32 then g ⟨i, h⟩ else 0) 32]
  exact Finset.sum_congr rfl (fun e _ => by rw [dif_pos e.isLt])

/-! ## The point's result block -/

variable (m : (ℓ : Loc nD τ sig) → Buf (Elt Ideal) ℓ)

/-- The point's three input blocks, at their literal shapes. -/
abbrev blk0 (hO : Ok m) (c : Dev nD) (t : Fin (cfgM m hO).N) : S8x4x32x1024.Idx → EReal := iblk m hO c 0 t
abbrev blk1 (hO : Ok m) (c : Dev nD) (t : Fin (cfgM m hO).N) : S8x32x1024.Idx → EReal := iblk m hO c 1 t
abbrev blk2 (hO : Ok m) (c : Dev nD) (t : Fin (cfgM m hO).N) : S32x32x1024.Idx → EReal := iblk m hO c 2 t

/-- At grid point `t` the body leaves in the result block the edge sums over the point's input blocks. -/
theorem point_value (hO : Ok m) (hH : Hyps m hO)
    (hr : Cert.Axon.InRange (m (((0 : Dev nD) : Thread nD τ).loc main_arg3)) (m (((0 : Dev nD) : Thread nD τ).loc main_arg4)))
    (c : Dev nD) (t : Fin (cfgM m hO).N) :
    outsAt0 m hO hH c t
      = Cert.Axon.Gblock (iblk m hO c 0 t) (iblk m hO c 1 t) (iblk m hO c 2 t)
          (m (((0 : Dev nD) : Thread nD τ).loc main_arg3)) (m (((0 : Dev nD) : Thread nD τ).loc main_arg4)) := by
  have hw0 : ∀ e : Fin 32, word0 (F := Ideal) c (tbl m 0) e = m (((0 : Dev nD) : Thread nD τ).loc main_arg3) (ix1 e) :=
    fun e => Cert.KernelIdeal.TableRange.src_word m e _ rfl _ _
  have hw1 : ∀ e : Fin 32, word1 (F := Ideal) c (tbl m 1) e = m (((0 : Dev nD) : Thread nD τ).loc main_arg4) (ix1 e) :=
    fun e => Cert.KernelIdeal.TableRange.dst_word m e _ rfl _ _
  have hS : ∀ e : Fin 32, chkW (word0 (F := Ideal) c (tbl m 0) e) := fun e => by
    rw [hw0 e]; exact Cert.KernelIdeal.TableRange.slab_inb _ (hr e).1
  have hD : ∀ e : Fin 32, chkW (word1 (F := Ideal) c (tbl m 1) e) := fun e => by
    rw [hw1 e]; exact Cert.KernelIdeal.TableRange.slab_inb _ (hr e).2
  funext y
  unfold outsAt0 out0_A_3 kernelRun0_A
  dsimp only
  rw [View.read_writes_junk_apply_eq_canon, View.canon_unit_zero (by funext a; fin_cases a <;> rfl)]
  unfold kernelRun0_A.sl.v588
  rw [View.readCov_eq_canon']
  show View.ld (View.canon _) (Rect.unit (s := S8x4x32x1024) ![0, 0, 0, 0] S8x4x32x1024.size _) y = _
  rw [View.ld_unit_zero (by funext a; fin_cases a <;> rfl)]
  -- the body's accumulator stores are the recursion above at k = 32
  change View.canon (accP (F := Ideal) c (ms0_2 m hO t) (hs0_2 m hO t) scM0_0 scM0_1
      (kernelRun0_A.sl.HS0_1 c (ms0_0 m hO t) (hs0_0 m hO t) (ms0_1 m hO t) (hs0_1 m hO t) (iblk m hO c 0 t) (iblk m hO c 1 t))
      (iblk m hO c 2 t) (tbl m 0) (tbl m 1) hS hD 32 (le_refl 32)) y = _
  refine (canon_accP c (ms0_2 m hO t) (hs0_2 m hO t) scM0_0 scM0_1 _ (blk2 m hO c t) (tbl m 0) (tbl m 1) hS hD
    (fun y => blk0 m hO c t y * blk1 m hO c t (ix3 (y 0) (y 2) (y 3)))
    (fun y => canon_mod c _ _ _ _ (blk0 m hO c t) (blk1 m hO c t) y) 32 (le_refl 32) y).trans ?_
  refine (sum_range_edges (fun e => contrib c (blk2 m hO c t) (tbl m 0) (tbl m 1)
    (fun y => blk0 m hO c t y * blk1 m hO c t (ix3 (y 0) (y 2) (y 3))) e y)).trans ?_
  unfold Cert.Axon.Gblock
  refine Finset.sum_congr rfl (fun e _ => ?_)
  unfold contrib term
  rw [hw0 e, hw1 e]

end Cert.KernelIdeal.PointValue

end
-- ==== Proof.KernelArray.lean ====
/-
  The kernel's whole result array, at the ideal instance: grid point `t` owns rows 32·t … 32·t + 31 of every node's
  and batch entry's plane; its blocks of the three inputs are those rows of the inputs, its result block (the edge
  sums over the blocks) is those rows of the edge sums over the whole arrays, and the 32 points' blocks cover the
  array.
-/
import proofs.«415922_j3796751089943_1_alg».proof.Proof.Gen.KernelIdeal.Frame
import proofs.«415922_j3796751089943_1_alg».proof.Proof.Spec
import proofs.«415922_j3796751089943_1_alg».proof.Proof.PointValue
import Idealize.ShloMosaic.Lib.Pipeline.Value

set_option maxRecDepth 16384

noncomputable section

namespace Cert.KernelIdeal.ArrayValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The index maps over the grid: point `t` owns block `t` of the row axis of every window and block 0 of every other
    axis. -/
theorem idx_facts (hO : Ok m) : ∀ t : Fin (cfgM m hO).N,
    ((cfgM m hO).win 0).index t (0 : Fin 4) = 0 ∧ ((cfgM m hO).win 0).index t (1 : Fin 4) = 0
    ∧ ((cfgM m hO).win 0).index t (2 : Fin 4) = t.val ∧ ((cfgM m hO).win 0).index t (3 : Fin 4) = 0
    ∧ ((cfgM m hO).win 1).index t (0 : Fin 3) = 0 ∧ ((cfgM m hO).win 1).index t (1 : Fin 3) = t.val
    ∧ ((cfgM m hO).win 1).index t (2 : Fin 3) = 0
    ∧ ((cfgM m hO).win 2).index t (0 : Fin 3) = 0 ∧ ((cfgM m hO).win 2).index t (1 : Fin 3) = t.val
    ∧ ((cfgM m hO).win 2).index t (2 : Fin 3) = 0
    ∧ ((cfgM m hO).win 3).index t (0 : Fin 4) = 0 ∧ ((cfgM m hO).win 3).index t (1 : Fin 4) = 0
    ∧ ((cfgM m hO).win 3).index t (2 : Fin 4) = t.val ∧ ((cfgM m hO).win 3).index t (3 : Fin 4) = 0 :=
  (by decide +kernel : ∀ t : Fin grid0.N,
    cc0_transform_0 (grid0.coords t) (0 : Fin 4) = 0 ∧ cc0_transform_0 (grid0.coords t) (1 : Fin 4) = 0
    ∧ cc0_transform_0 (grid0.coords t) (2 : Fin 4) = t.val ∧ cc0_transform_0 (grid0.coords t) (3 : Fin 4) = 0
    ∧ cc0_transform_1 (grid0.coords t) (0 : Fin 3) = 0 ∧ cc0_transform_1 (grid0.coords t) (1 : Fin 3) = t.val
    ∧ cc0_transform_1 (grid0.coords t) (2 : Fin 3) = 0
    ∧ cc0_transform_2 (grid0.coords t) (0 : Fin 3) = 0 ∧ cc0_transform_2 (grid0.coords t) (1 : Fin 3) = t.val
    ∧ cc0_transform_2 (grid0.coords t) (2 : Fin 3) = 0
    ∧ cc0_transform_3 (grid0.coords t) (0 : Fin 4) = 0 ∧ cc0_transform_3 (grid0.coords t) (1 : Fin 4) = 0
    ∧ cc0_transform_3 (grid0.coords t) (2 : Fin 4) = t.val ∧ cc0_transform_3 (grid0.coords t) (3 : Fin 4) = 0)

/-- The edge sums over one point's blocks are the edge sums over the arrays at the point's rows, when the blocks
    are those rows of the arrays (`r` the first row). -/
theorem block_of_array (spk : Axon.SA.Idx → EReal) (msk : Axon.SM.Idx → EReal) (wts : Axon.SW.Idx → EReal)
    (src dst : Axon.ST.Idx → BitVec 32)
    (x0 : Axon.BA.Idx → EReal) (x1 : Axon.BM.Idx → EReal) (x2 : Axon.BW.Idx → EReal) (r : Nat)
    (h0 : ∀ (y : Axon.BA.Idx) (k : Axon.SA.Idx), (k 0).val = (y 0).val → (k 1).val = (y 1).val →
      (k 2).val = r + (y 2).val → (k 3).val = (y 3).val → x0 y = spk k)
    (h1 : ∀ (y : Axon.BM.Idx) (k : Axon.SM.Idx), (k 0).val = (y 0).val → (k 1).val = r + (y 1).val →
      (k 2).val = (y 2).val → x1 y = msk k)
    (h2 : ∀ (y : Axon.BW.Idx) (k : Axon.SW.Idx), (k 0).val = (y 0).val → (k 1).val = r + (y 1).val →
      (k 2).val = (y 2).val → x2 y = wts k)
    (y : Axon.BA.Idx) (i : Axon.SA.Idx) (hi0 : (i 0).val = (y 0).val) (hi1 : (i 1).val = (y 1).val)
    (hi2 : (i 2).val = r + (y 2).val) (hi3 : (i 3).val = (y 3).val) :
    Axon.Gblock x0 x1 x2 src dst y = Axon.G spk msk wts src dst i := by
  unfold Axon.Gblock Axon.G Axon.signal
  refine Finset.sum_congr rfl fun e _ => ?_
  rw [hi0,
    h0 (ix4 (Axon.node (src (ix1 e))) (y 1) (y 2) (y 3)) (ix4 (Axon.node (src (ix1 e))) (i 1) (i 2) (i 3)) rfl hi1 hi2 hi3,
    h1 (ix3 (Axon.node (src (ix1 e))) (y 2) (y 3)) (ix3 (Axon.node (src (ix1 e))) (i 2) (i 3)) rfl hi2 hi3,
    h2 (ix3 e (y 2) (y 3)) (ix3 e (i 2) (i 3)) rfl hi2 hi3]

/-- Point `t`'s block of the spike array is rows 32·t … 32·t + 31 of every node's and batch entry's plane. -/
theorem iblk0_apply (hO : Ok m) (c : Dev nD) (t : Fin (cfgM m hO).N) (y : Axon.BA.Idx) (k : Axon.SA.Idx)
    (hk0 : (k 0).val = (y 0).val) (hk1 : (k 1).val = (y 1).val) (hk2 : (k 2).val = 32 * t.val + (y 2).val)
    (hk3 : (k 3).val = (y 3).val) :
    (iblk m hO c 0 t : Axon.BA.Idx → EReal) y = (m ((c.tc : Thread nD τ).loc main_arg0) : Axon.SA.Idx → EReal) k := by
  obtain ⟨e0, e1, e2, e3, -⟩ := idx_facts m hO t
  unfold iblk
  show V m c main_arg0 _ = m (c.tc.loc main_arg0) _
  unfold V
  congr 1
  funext a
  apply Fin.ext
  match a with
  | ⟨0, _⟩ => show ((cfgM m hO).win 0).index t (0 : Fin 4) * 8 + 1 * (y 0).val = (k 0).val; rw [e0, hk0]; omega
  | ⟨1, _⟩ => show ((cfgM m hO).win 0).index t (1 : Fin 4) * 4 + 1 * (y 1).val = (k 1).val; rw [e1, hk1]; omega
  | ⟨2, _⟩ => show ((cfgM m hO).win 0).index t (2 : Fin 4) * 32 + 1 * (y 2).val = (k 2).val; rw [e2, hk2]; omega
  | ⟨3, _⟩ => show ((cfgM m hO).win 0).index t (3 : Fin 4) * 1024 + 1 * (y 3).val = (k 3).val; rw [e3, hk3]; omega

/-- Point `t`'s block of the mask array is the same rows of every node's mask. -/
theorem iblk1_apply (hO : Ok m) (c : Dev nD) (t : Fin (cfgM m hO).N) (y : Axon.BM.Idx) (k : Axon.SM.Idx)
    (hk0 : (k 0).val = (y 0).val) (hk1 : (k 1).val = 32 * t.val + (y 1).val) (hk2 : (k 2).val = (y 2).val) :
    (iblk m hO c 1 t : Axon.BM.Idx → EReal) y = (m ((c.tc : Thread nD τ).loc main_arg1) : Axon.SM.Idx → EReal) k := by
  obtain ⟨-, -, -, -, e0, e1, e2, -⟩ := idx_facts m hO t
  unfold iblk
  show V m c main_arg1 _ = m (c.tc.loc main_arg1) _
  unfold V
  congr 1
  funext a
  apply Fin.ext
  match a with
  | ⟨0, _⟩ => show ((cfgM m hO).win 1).index t (0 : Fin 3) * 8 + 1 * (y 0).val = (k 0).val; rw [e0, hk0]; omega
  | ⟨1, _⟩ => show ((cfgM m hO).win 1).index t (1 : Fin 3) * 32 + 1 * (y 1).val = (k 1).val; rw [e1, hk1]; omega
  | ⟨2, _⟩ => show ((cfgM m hO).win 1).index t (2 : Fin 3) * 1024 + 1 * (y 2).val = (k 2).val; rw [e2, hk2]; omega

/-- Point `t`'s block of the weight array is the same rows of every edge's weight. -/
theorem iblk2_apply (hO : Ok m) (c : Dev nD) (t : Fin (cfgM m hO).N) (y : Axon.BW.Idx) (k : Axon.SW.Idx)
    (hk0 : (k 0).val = (y 0).val) (hk1 : (k 1).val = 32 * t.val + (y 1).val) (hk2 : (k 2).val = (y 2).val) :
    (iblk m hO c 2 t : Axon.BW.Idx → EReal) y = (m ((c.tc : Thread nD τ).loc main_arg2) : Axon.SW.Idx → EReal) k := by
  obtain ⟨-, -, -, -, -, -, -, e0, e1, e2, -⟩ := idx_facts m hO t
  unfold iblk
  show V m c main_arg2 _ = m (c.tc.loc main_arg2) _
  unfold V
  congr 1
  funext a
  apply Fin.ext
  match a with
  | ⟨0, _⟩ => show ((cfgM m hO).win 2).index t (0 : Fin 3) * 32 + 1 * (y 0).val = (k 0).val; rw [e0, hk0]; omega
  | ⟨1, _⟩ => show ((cfgM m hO).win 2).index t (1 : Fin 3) * 32 + 1 * (y 1).val = (k 1).val; rw [e1, hk1]; omega
  | ⟨2, _⟩ => show ((cfgM m hO).win 2).index t (2 : Fin 3) * 1024 + 1 * (y 2).val = (k 2).val; rw [e2, hk2]; omega

/-- What point `t` writes back is block `t` of the edge sums of the argument arrays. -/
theorem flushed_eq (hO : Ok m) (hH : Hyps m hO)
    (hr : Cert.Axon.InRange (m (((0 : Dev nD) : Thread nD τ).loc main_arg3)) (m (((0 : Dev nD) : Thread nD τ).loc main_arg4)))
    (c : Dev nD) (t : Fin (cfgM m hO).N) :
    (dats m hO hH 0 c).flushed 3 t = (((cfgM m hO).win 3).blk t).view.read (Elt Ideal)
      (Cert.Axon.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))) := by
  obtain rfl : c = 0 := Subsingleton.elim _ _
  show ((cfgM m hO).win 3).cut ((cfgM m hO).grid.coords t) ((dats m hO hH 0 0).after 3 t) = _
  rw [after0_3, PointValue.point_value m hO hH hr 0 t]
  obtain ⟨-, -, -, -, -, -, -, -, -, -, e0, e1, e2, e3⟩ := idx_facts m hO t
  refine funext fun (y : S8x4x32x1024.Idx) => ?_
  refine block_of_array _ _ _ _ _ _ _ _ (32 * t.val) (iblk0_apply m hO 0 t) (iblk1_apply m hO 0 t) (iblk2_apply m hO 0 t)
    _ _ ?_ ?_ ?_ ?_
  · show ((cfgM m hO).win 3).index t (0 : Fin 4) * 8 + 1 * (y 0).val = (y 0).val; rw [e0]; omega
  · show ((cfgM m hO).win 3).index t (1 : Fin 4) * 4 + 1 * (y 1).val = (y 1).val; rw [e1]; omega
  · show ((cfgM m hO).win 3).index t (2 : Fin 4) * 32 + 1 * (y 2).val = 32 * t.val + (y 2).val; rw [e2]; omega
  · show ((cfgM m hO).win 3).index t (3 : Fin 4) * 1024 + 1 * (y 3).val = (y 3).val; rw [e3]; omega

/-- An index of the array is in point `t`'s block iff each coordinate is in the block's range on its axis. -/
theorem mem_blk (hO : Ok m) (t : Fin (cfgM m hO).N) (i : Axon.SA.Idx) :
    i ∈ (((cfgM m hO).win 3).blk t).view.set ↔ ∀ a : Fin 4, ((cfgM m hO).win 3).index t a * S8x4x32x1024.size a ≤ (i a).val ∧ (i a).val < ((cfgM m hO).win 3).index t a * S8x4x32x1024.size a + S8x4x32x1024.size a := by
  have key : ((View.whole main_v0).slice (((cfgM m hO).win 3).rect t)).set = (((cfgM m hO).win 3).rect t).set :=
    View.set_slice_whole main_v0 _
  show i ∈ ((View.whole main_v0).slice (((cfgM m hO).win 3).rect t)).set ↔ _
  refine (Eq.to_iff (congrArg (fun s => i ∈ s) key)).trans ?_
  exact Rect.mem_set_unit

/-- Every index of the result array is in some point's block: row `r` is in the block of point `r / 32`. -/
theorem cover (hO : Ok m) (i : Axon.SA.Idx) :
    ∃ t : Fin (cfgM m hO).N, ((cfgM m hO).win 3).flush t = true ∧ i ∈ (((cfgM m hO).win 3).blk t).view.set := by
  have hi0 : (i 0).val < 8 := (i 0).isLt
  have hi1 : (i 1).val < 4 := (i 1).isLt
  have hi2 : (i 2).val < 1024 := (i 2).isLt
  have hi3 : (i 3).val < 1024 := (i 3).isLt
  have hN : (cfgM m hO).N = 32 := N_0
  obtain ⟨t, ht⟩ : ∃ t : Fin (cfgM m hO).N, t.val = (i 2).val / 32 := ⟨⟨(i 2).val / 32, by rw [hN]; omega⟩, rfl⟩
  obtain ⟨-, -, -, -, -, -, -, -, -, -, e0, e1, e2, e3⟩ := idx_facts m hO t
  refine ⟨t, flush0_3 (adm m hO) t, ?_⟩
  rw [mem_blk]
  intro a
  match a with
  | ⟨0, _⟩ => show ((cfgM m hO).win 3).index t (0 : Fin 4) * 8 ≤ (i 0).val ∧ (i 0).val < ((cfgM m hO).win 3).index t (0 : Fin 4) * 8 + 8; rw [e0]; omega
  | ⟨1, _⟩ => show ((cfgM m hO).win 3).index t (1 : Fin 4) * 4 ≤ (i 1).val ∧ (i 1).val < ((cfgM m hO).win 3).index t (1 : Fin 4) * 4 + 4; rw [e1]; omega
  | ⟨2, _⟩ => show ((cfgM m hO).win 3).index t (2 : Fin 4) * 32 ≤ (i 2).val ∧ (i 2).val < ((cfgM m hO).win 3).index t (2 : Fin 4) * 32 + 32; rw [e2, ht]; omega
  | ⟨3, _⟩ => show ((cfgM m hO).win 3).index t (3 : Fin 4) * 1024 ≤ (i 3).val ∧ (i 3).val < ((cfgM m hO).win 3).index t (3 : Fin 4) * 1024 + 1024; rw [e3]; omega

/-- The result array after the run: the edge sums of the argument arrays. -/
theorem final (hO : Ok m) (hH : Hyps m hO)
    (hr : Cert.Axon.InRange (m (((0 : Dev nD) : Thread nD τ).loc main_arg3)) (m (((0 : Dev nD) : Thread nD τ).loc main_arg4)))
    (c : Dev nD) :
    (dats m hO hH 0 c).arrAt 3 (cfgM m hO).N
      = Cert.Axon.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) :=
  (dats m hO hH 0 c).arrAt_eq_of_cover 3 _ (fun t _ => flushed_eq m hO hH hr c t) (cover m hO)

/-- The kernel's run: the result array ends at the edge sums of the argument arrays, the arguments unchanged. -/
theorem run (hO : Ok m) (hH : Hyps m hO)
    (hr : Cert.Axon.InRange (m (((0 : Dev nD) : Thread nD τ).loc main_arg3)) (m (((0 : Dev nD) : Thread nD τ).loc main_arg4))) :
    θ_run defs (onTc (τ := τ) (main (F := Ideal))) ⟨m, fun _ => 0, ρ⟩ (fun r => ∀ c : Dev nD,
      r.2.mem ((c.tc : Thread nD τ).loc main_v0)
        = Cert.Axon.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 3).trans (final m hO hH hr c),
      ((h c).1 0).trans (((dats m hO hH 0 c).arrAt_in 0 rfl _).trans ((A_eq m hO hH c 0).trans (V_main_arg0 m c))),
      ((h c).1 1).trans (((dats m hO hH 0 c).arrAt_in 1 rfl _).trans ((A_eq m hO hH c 1).trans (V_main_arg1 m c))),
      ((h c).1 2).trans (((dats m hO hH 0 c).arrAt_in 2 rfl _).trans ((A_eq m hO hH c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ hO hH)

end Cert.KernelIdeal.ArrayValue

end
-- ==== Proof.RefGather.lean ====
/-
  The reference's two gathers read at an index. Each takes, for edge e, the whole slab of the operand at the start
  index idx[e, 0] along axis 0 (the other axes whole): a start index in [0, 8) is neither wrapped nor clamped, so
  result element (e, rest) is the operand at (idx[e, 0], rest).
-/
import proofs.«415922_j3796751089943_1_alg».proof.Proof.Gen.ReferenceIdeal
import proofs.«415922_j3796751089943_1_alg».proof.Proof.Spec

set_option maxRecDepth 16384

noncomputable section

namespace Cert.ReferenceIdeal.RefGather

open Cert.ReferenceIdeal Cert.ReferenceIdeal.Gen
open Idealize.ShloMosaic Idealize.ShloMosaic.ValueIdx

variable {α : Type}

/-- A word below 8 is non-negative when read signed, and the clamp into [0, 8 − 1] leaves it alone: the clamped
    signed reading is the word's own value. -/
theorem clamp_of_lt {w : BitVec 32} (h : w.toNat < 8) : min w.toInt.toNat (8 - 1) = w.toNat := by
  have hi : w.toInt = (w.toNat : Int) := BitVec.toInt_eq_toNat_of_lt (by omega)
  rw [hi, Int.toNat_natCast]
  omega

local notation "dA" => gather_S8x4x1024x1024_S32x1_S32x4x1024x1024_123_0_n_n_0_1_1410241024
local notation "dM" => gather_S8x1024x1024_S32x1_S32x1024x1024_12_0_n_n_0_1_110241024

/-- The gather of spike slabs at an index. The operand index is, per axis, start + batching coordinate + offset
    coordinate. There is no batching axis. Axis 0 is collapsed (offset 0) and is the one axis the start index map
    names: its start is idx[e, 0] read signed and clamped into [0, 7], which is the word's value, the node it names.
    Axes 1, 2, 3 have start 0 and are the kept axes in order, so their offsets are the result's coordinates 1, 2, 3. -/
theorem gather_spikes_apply (x : S8x4x1024x1024.Idx → α) (idx : IVec S32x1 32)
    (hs : ∀ e : Fin 32, (idx (ix2 e (0 : Fin 1))).toNat < 8) (j : S32x4x1024x1024.Idx) :
    Host.gather gather_S8x4x1024x1024_S32x1_S32x4x1024x1024_123_0_n_n_0_1_1410241024 x idx j
      = x (ix4 (Cert.Axon.node (idx (ix2 (j 0) (0 : Fin 1)))) (j 1) (j 2) (j 3)) := by
  unfold Host.gather
  congr 1
  funext a
  refine Fin.ext ?_
  show (dA).start j idx a + (dA).batchCoord j a + (dA).offCoord j a = _
  rw [GatherDims.batchCoord_eq_zero _ _ _ List.not_mem_nil, Nat.add_zero]
  match a with
  | ⟨0, _⟩ =>
    show (dA).start j idx (0 : Fin 4) + (dA).offCoord j (0 : Fin 4) = _
    rw [GatherDims.offCoord_eq_zero _ _ _
      (fun h => ((GatherDims.mem_sKept _ _).mp h).1 (List.mem_singleton.mpr rfl)), Nat.add_zero]
    unfold GatherDims.start
    rw [dif_pos (show (0 : Fin 4) ∈ (dA).startIndexMap from List.mem_singleton.mpr rfl)]
    -- the start-indices index read for result index j: j's batch coordinate, then component 0
    have hsi : (dA).siIdx j ⟨List.idxOf (0 : Fin 4) (dA).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    show min (idx (ix2 (j 0) (0 : Fin 1))).toInt.toNat (8 - 1) = (Cert.Axon.node (idx (ix2 (j 0) (0 : Fin 1)))).val
    rw [clamp_of_lt (hs (j 0)), Cert.Axon.node_val_of_lt (hs (j 0))]
  | ⟨1, _⟩ =>
    show (dA).start j idx (1 : Fin 4) + (dA).offCoord j (1 : Fin 4) = _
    have h0 : (dA).start j idx (1 : Fin 4) = 0 := by
      unfold GatherDims.start; rw [dif_neg (by decide)]
    rw [h0, Nat.zero_add]
    unfold GatherDims.offCoord
    rw [dif_pos (show (1 : Fin 4) ∈ (dA).sKept by decide)]
    rfl
  | ⟨2, _⟩ =>
    show (dA).start j idx (2 : Fin 4) + (dA).offCoord j (2 : Fin 4) = _
    have h0 : (dA).start j idx (2 : Fin 4) = 0 := by
      unfold GatherDims.start; rw [dif_neg (by decide)]
    rw [h0, Nat.zero_add]
    unfold GatherDims.offCoord
    rw [dif_pos (show (2 : Fin 4) ∈ (dA).sKept by decide)]
    rfl
  | ⟨3, _⟩ =>
    show (dA).start j idx (3 : Fin 4) + (dA).offCoord j (3 : Fin 4) = _
    have h0 : (dA).start j idx (3 : Fin 4) = 0 := by
      unfold GatherDims.start; rw [dif_neg (by decide)]
    rw [h0, Nat.zero_add]
    unfold GatherDims.offCoord
    rw [dif_pos (show (3 : Fin 4) ∈ (dA).sKept by decide)]
    rfl

/-- The gather of mask slabs at an index: the same reading one rank lower. Axis 0 is collapsed and carries the
    clamped start, the node idx[e, 0] names; axes 1, 2 have start 0 and offsets the result's coordinates 1, 2. -/
theorem gather_masks_apply (x : S8x1024x1024.Idx → α) (idx : IVec S32x1 32)
    (hs : ∀ e : Fin 32, (idx (ix2 e (0 : Fin 1))).toNat < 8) (j : S32x1024x1024.Idx) :
    Host.gather gather_S8x1024x1024_S32x1_S32x1024x1024_12_0_n_n_0_1_110241024 x idx j
      = x (ix3 (Cert.Axon.node (idx (ix2 (j 0) (0 : Fin 1)))) (j 1) (j 2)) := by
  unfold Host.gather
  congr 1
  funext a
  refine Fin.ext ?_
  show (dM).start j idx a + (dM).batchCoord j a + (dM).offCoord j a = _
  rw [GatherDims.batchCoord_eq_zero _ _ _ List.not_mem_nil, Nat.add_zero]
  match a with
  | ⟨0, _⟩ =>
    show (dM).start j idx (0 : Fin 3) + (dM).offCoord j (0 : Fin 3) = _
    rw [GatherDims.offCoord_eq_zero _ _ _
      (fun h => ((GatherDims.mem_sKept _ _).mp h).1 (List.mem_singleton.mpr rfl)), Nat.add_zero]
    unfold GatherDims.start
    rw [dif_pos (show (0 : Fin 3) ∈ (dM).startIndexMap from List.mem_singleton.mpr rfl)]
    have hsi : (dM).siIdx j ⟨List.idxOf (0 : Fin 3) (dM).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    show min (idx (ix2 (j 0) (0 : Fin 1))).toInt.toNat (8 - 1) = (Cert.Axon.node (idx (ix2 (j 0) (0 : Fin 1)))).val
    rw [clamp_of_lt (hs (j 0)), Cert.Axon.node_val_of_lt (hs (j 0))]
  | ⟨1, _⟩ =>
    show (dM).start j idx (1 : Fin 3) + (dM).offCoord j (1 : Fin 3) = _
    have h0 : (dM).start j idx (1 : Fin 3) = 0 := by
      unfold GatherDims.start; rw [dif_neg (by decide)]
    rw [h0, Nat.zero_add]
    unfold GatherDims.offCoord
    rw [dif_pos (show (1 : Fin 3) ∈ (dM).sKept by decide)]
    rfl
  | ⟨2, _⟩ =>
    show (dM).start j idx (2 : Fin 3) + (dM).offCoord j (2 : Fin 3) = _
    have h0 : (dM).start j idx (2 : Fin 3) = 0 := by
      unfold GatherDims.start; rw [dif_neg (by decide)]
    rw [h0, Nat.zero_add]
    unfold GatherDims.offCoord
    rw [dif_pos (show (2 : Fin 3) ∈ (dM).sKept by decide)]
    rfl

end Cert.ReferenceIdeal.RefGather

end
-- ==== Proof.RefScatter.lean ====
/-
  The reference's accumulating scatter read at an index, on the extended reals. Update element (e, b, h, w) lands
  at (idx[e, 0], b, h, w) when idx[e, 0], read signed, lies in [0, 8); so result element (n, b, h, w) is the operand's
  plus the sum, over the edges e whose index word is n, of update element (e, b, h, w) — the sum over all update
  elements that land there, regrouped by edge.
-/
import proofs.«415922_j3796751089943_1_alg».proof.Proof.Gen.ReferenceIdeal
import proofs.«415922_j3796751089943_1_alg».proof.Proof.Spec
import Idealize.ShloMosaic.PureOps.Ideal
set_option maxRecDepth 16384

noncomputable section

namespace Cert.ReferenceIdeal.RefScatter

open Cert.ReferenceIdeal Cert.ReferenceIdeal.Gen
open Idealize.ShloMosaic Idealize.ShloMosaic.ValueIdx

/-- The scatter's dimension numbers. -/
local notation "D" => scatter_S8x4x1024x1024_S32x1_S32x4x1024x1024_123_0_0_1

/-- Update element (e, b, h, w) reads its one start component at index-array position (e, 0). -/
theorem siIdx_eq (j : S32x4x1024x1024.Idx) (c : Fin (D).scatterDimsToOperandDims.length) :
    (D).siIdx j c = ix2 (j 0) (0 : Fin 1) := by
  funext b; refine Fin.ext ?_
  match b with
  | ⟨0, _⟩ => rfl
  | ⟨1, _⟩ =>
    show c.val = 0
    have := c.isLt
    have h1 : (D).scatterDimsToOperandDims.length = 1 := rfl
    omega

/-- On axis 0 the window starts at the index word of the update's edge, read signed. -/
theorem start_zero (j : S32x4x1024x1024.Idx) (idx : IVec S32x1 32) :
    (D).start j idx 0 = (idx (ix2 (j 0) (0 : Fin 1))).toInt := by
  unfold ScatterDims.start
  rw [dif_pos (show (0 : Fin 4) ∈ (D).scatterDimsToOperandDims from List.mem_singleton.mpr rfl), siIdx_eq]
  rfl

/-- On the other axes the window starts at 0. -/
theorem start_pos (j : S32x4x1024x1024.Idx) (idx : IVec S32x1 32) (a : Fin 4) (ha : a ≠ 0) :
    (D).start j idx a = 0 := by
  unfold ScatterDims.start
  rw [dif_neg (show a ∉ (D).scatterDimsToOperandDims from fun h => ha (List.mem_singleton.mp h))]

/-- Axis 0 is inserted: the window coordinate there is 0. -/
theorem window_zero (j : S32x4x1024x1024.Idx) : (D).window j 0 = 0 := by
  unfold ScatterDims.window
  rw [dif_neg (show (0 : Fin 4) ∉ (D).sKept from by decide)]

/-- On axes 1, 2, 3 the window coordinate is the update's own coordinate. -/
theorem window_one (j : S32x4x1024x1024.Idx) : (D).window j 1 = (j 1).val := by
  unfold ScatterDims.window
  rw [dif_pos (show (1 : Fin 4) ∈ (D).sKept from by decide)]
  rfl

theorem window_two (j : S32x4x1024x1024.Idx) : (D).window j 2 = (j 2).val := by
  unfold ScatterDims.window
  rw [dif_pos (show (2 : Fin 4) ∈ (D).sKept from by decide)]
  rfl

theorem window_three (j : S32x4x1024x1024.Idx) : (D).window j 3 = (j 3).val := by
  unfold ScatterDims.window
  rw [dif_pos (show (3 : Fin 4) ∈ (D).sKept from by decide)]
  rfl

/-- A word below 8 unsigned reads the same signed. -/
theorem toInt_of_lt {w : BitVec 32} (h : w.toNat < 8) : w.toInt = (w.toNat : Int) := by
  unfold BitVec.toInt
  rw [if_pos (by omega)]

/-- Where an update element lands: (e, b, h, w) lands at i exactly when the word of e is i's node and
    (b, h, w) are i's other coordinates; with every word in [0, 8) no update is dropped. -/
theorem resultIdx_iff (idx : IVec S32x1 32) (hd : ∀ e : Fin 32, (idx (ix2 e (0 : Fin 1))).toNat < 8)
    (j : S32x4x1024x1024.Idx) (i : S8x4x1024x1024.Idx) :
    (D).resultIdx? j idx = some i ↔
      (idx (ix2 (j 0) (0 : Fin 1))).toNat = (i 0).val ∧ j 1 = i 1 ∧ j 2 = i 2 ∧ j 3 = i 3 := by
  have hw := hd (j 0)
  have h0 : (D).start j idx 0 + (D).window j 0 = ((idx (ix2 (j 0) (0 : Fin 1))).toNat : Int) := by
    rw [start_zero, window_zero, toInt_of_lt hw]; simp
  have h1 : (D).start j idx 1 + (D).window j 1 = ((j 1).val : Int) := by
    rw [start_pos _ _ _ (by decide), window_one]; simp
  have h2 : (D).start j idx 2 + (D).window j 2 = ((j 2).val : Int) := by
    rw [start_pos _ _ _ (by decide), window_two]; simp
  have h3 : (D).start j idx 3 + (D).window j 3 = ((j 3).val : Int) := by
    rw [start_pos _ _ _ (by decide), window_three]; simp
  have hb0 : 0 ≤ (D).start j idx 0 + ((D).window j 0 : Int) ∧
      (D).start j idx 0 + ((D).window j 0 : Int) < ((S8x4x1024x1024.size 0 : Nat) : Int) := by
    rw [h0]; exact ⟨by omega, by show _ < ((8 : Nat) : Int); omega⟩
  have hb1 : 0 ≤ (D).start j idx 1 + ((D).window j 1 : Int) ∧
      (D).start j idx 1 + ((D).window j 1 : Int) < ((S8x4x1024x1024.size 1 : Nat) : Int) := by
    rw [h1]; exact ⟨by omega, by have : (j 1).val < 4 := (j 1).isLt; show _ < ((4 : Nat) : Int); omega⟩
  have hb2 : 0 ≤ (D).start j idx 2 + ((D).window j 2 : Int) ∧
      (D).start j idx 2 + ((D).window j 2 : Int) < ((S8x4x1024x1024.size 2 : Nat) : Int) := by
    rw [h2]; exact ⟨by omega, by have : (j 2).val < 1024 := (j 2).isLt; show _ < ((1024 : Nat) : Int); omega⟩
  have hb3 : 0 ≤ (D).start j idx 3 + ((D).window j 3 : Int) ∧
      (D).start j idx 3 + ((D).window j 3 : Int) < ((S8x4x1024x1024.size 3 : Nat) : Int) := by
    rw [h3]; exact ⟨by omega, by have : (j 3).val < 1024 := (j 3).isLt; show _ < ((1024 : Nat) : Int); omega⟩
  have hall : ∀ a, 0 ≤ (D).start j idx a + (D).window j a ∧ (D).start j idx a + (D).window j a < S8x4x1024x1024.size a := by
    intro a
    match a with
    | ⟨0, _⟩ => exact hb0
    | ⟨1, _⟩ => exact hb1
    | ⟨2, _⟩ => exact hb2
    | ⟨3, _⟩ => exact hb3
  unfold ScatterDims.resultIdx?
  rw [dif_pos hall, Option.some_inj]
  constructor
  · intro h
    have e0 : ((D).start j idx 0 + ((D).window j 0 : Int)).toNat = (i 0).val := congrArg Fin.val (congrFun h 0)
    have e1 : ((D).start j idx 1 + ((D).window j 1 : Int)).toNat = (i 1).val := congrArg Fin.val (congrFun h 1)
    have e2 : ((D).start j idx 2 + ((D).window j 2 : Int)).toNat = (i 2).val := congrArg Fin.val (congrFun h 2)
    have e3 : ((D).start j idx 3 + ((D).window j 3 : Int)).toNat = (i 3).val := congrArg Fin.val (congrFun h 3)
    exact ⟨by omega, Fin.ext (by omega), Fin.ext (by omega), Fin.ext (by omega)⟩
  · rintro ⟨e0, e1, e2, e3⟩
    have f1 := congrArg Fin.val e1
    have f2 := congrArg Fin.val e2
    have f3 := congrArg Fin.val e3
    funext a
    refine Fin.ext ?_
    match a with
    | ⟨0, _⟩ => show ((D).start j idx 0 + ((D).window j 0 : Int)).toNat = (i 0).val; omega
    | ⟨1, _⟩ => show ((D).start j idx 1 + ((D).window j 1 : Int)).toNat = (i 1).val; omega
    | ⟨2, _⟩ => show ((D).start j idx 2 + ((D).window j 2 : Int)).toNat = (i 2).val; omega
    | ⟨3, _⟩ => show ((D).start j idx 3 + ((D).window j 3 : Int)).toNat = (i 3).val; omega

/-- The accumulating scatter at an index, when every index word lies in [0, 8). -/
theorem scatterAdd_apply (x : S8x4x1024x1024.Idx → EReal) (idx : IVec S32x1 32) (upd : S32x4x1024x1024.Idx → EReal)
    (hd : ∀ e : Fin 32, (idx (ix2 e (0 : Fin 1))).toNat < 8) (i : S8x4x1024x1024.Idx) :
    Ideal.hostScatterAdd scatter_S8x4x1024x1024_S32x1_S32x4x1024x1024_123_0_0_1 x idx upd i
      = x i + ∑ e : Fin 32, if (idx (ix2 e (0 : Fin 1))).toNat = (i 0).val then upd (ix4 e (i 1) (i 2) (i 3)) else 0 := by
  unfold Ideal.hostScatterAdd
  congr 1
  rw [← Finset.sum_filter]
  refine Finset.sum_nbij' (fun j => (j 0 : Fin 32)) (fun e => ix4 e (i 1) (i 2) (i 3)) ?_ ?_ ?_ ?_ ?_
  · intro j hj
    rw [Finset.mem_filter] at hj
    exact Finset.mem_filter.mpr ⟨Finset.mem_univ _, ((resultIdx_iff idx hd j i).mp hj.2).1⟩
  · intro e he
    rw [Finset.mem_filter] at he
    exact Finset.mem_filter.mpr ⟨Finset.mem_univ _, (resultIdx_iff idx hd _ i).mpr ⟨he.2, rfl, rfl, rfl⟩⟩
  · intro j hj
    rw [Finset.mem_filter] at hj
    obtain ⟨_, e1, e2, e3⟩ := (resultIdx_iff idx hd j i).mp hj.2
    rw [← e1, ← e2, ← e3]
    exact (eq_ix4 j).symm
  · intro e he
    rfl
  · intro j hj
    rw [Finset.mem_filter] at hj
    obtain ⟨_, e1, e2, e3⟩ := (resultIdx_iff idx hd j i).mp hj.2
    rw [← e1, ← e2, ← e3]
    exact congrArg upd (eq_ix4 j)

end Cert.ReferenceIdeal.RefScatter

end
-- ==== Proof.RefValue.lean ====
/-
  The reference's result, at the ideal instance, is the edge sums: it gathers each edge's source node's spikes and
  mask (a word in [0, 8) is its own index: not negative, so not wrapped, and in range, so not clamped), multiplies
  them with the edge's weight, and scatter-adds the 32 edge arrays into a zero array at the destination words (a
  word in [0, 8) lands inside the array), so position (n, b, h, w) receives exactly the edges whose destination is n.
-/
import proofs.«415922_j3796751089943_1_alg».proof.Proof.Gen.ReferenceIdeal.Read
import proofs.«415922_j3796751089943_1_alg».proof.Proof.Spec
import proofs.«415922_j3796751089943_1_alg».proof.Proof.RefGather
import proofs.«415922_j3796751089943_1_alg».proof.Proof.RefScatter
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem

/-- A word below 8 is not negative when read signed. -/
theorem slt_zero_of_lt {w : BitVec 32} (h : w.toNat < 8) : IntOp.cmpi .slt w 0#32 = 0#1 := by
  have h1 : w.toInt = (w.toNat : Int) := BitVec.toInt_eq_toNat_of_lt (by omega)
  have h2 : ¬ ((w.toNat : Int) < 0) := by omega
  simp [IntOp.cmpi, BitVec.slt, h1, h2]

/-- Entry (e, 0) of a table laid out as a column reads the table at e (the spikes' source column). -/
theorem idx5_eq (e : Fin 32) : Read.idx_main_v5 (ix2 e (0 : Fin 1)) = ix1 e := by
  funext a; match a with | ⟨0, _⟩ => rfl

/-- The same for the masks' source column. -/
theorem idx12_eq (e : Fin 32) : Read.idx_main_v12 (ix2 e (0 : Fin 1)) = ix1 e := by
  funext a; match a with | ⟨0, _⟩ => rfl

/-- The same for the destination column. -/
theorem idx21_eq (e : Fin 32) : Read.idx_main_v21 (ix2 e (0 : Fin 1)) = ix1 e := by
  funext a; match a with | ⟨0, _⟩ => rfl

/-- The spikes' gather index of edge e is the source word itself when it lies in [0, 8): not negative, so 8 is not added. -/
theorem src_word5 (x3 : (⟨S32, .i32⟩ : BufTy).Contents (Elt Ideal)) (e : Fin 32) (h : (x3 (ix1 e)).toNat < 8) :
    Read.val_main_v5 (F := Ideal) x3 (ix2 e (0 : Fin 1)) = x3 (ix1 e) := by
  rw [Read.val_main_v5_apply, idx5_eq, Read.val_main_v4_apply, Read.val_main_v1_apply, Read.val_main_v0_apply,
    Read.val_main_c_apply, slt_zero_of_lt h, select_zero]

/-- The masks' gather index of edge e is the source word itself when it lies in [0, 8). -/
theorem src_word12 (x3 : (⟨S32, .i32⟩ : BufTy).Contents (Elt Ideal)) (e : Fin 32) (h : (x3 (ix1 e)).toNat < 8) :
    Read.val_main_v12 (F := Ideal) x3 (ix2 e (0 : Fin 1)) = x3 (ix1 e) := by
  rw [Read.val_main_v12_apply, idx12_eq, Read.val_main_v11_apply, Read.val_main_v8_apply, Read.val_main_v7_apply,
    Read.val_main_c_1_apply, slt_zero_of_lt h, select_zero]

/-- The scatter index of edge e is the destination word. -/
theorem dst_word (x4 : (⟨S32, .i32⟩ : BufTy).Contents (Elt Ideal)) (e : Fin 32) :
    Read.val_main_v21 (F := Ideal) x4 (ix2 e (0 : Fin 1)) = x4 (ix1 e) := by
  rw [Read.val_main_v21_apply, idx21_eq]

/-- The weights broadcast over the batch axis read, at (e, b, h, w), the weights at (e, h, w). -/
theorem idx1718_eq (e : Fin 32) (b : Fin 4) (h w : Fin 1024) :
    Read.idx_main_v17 (Read.idx_main_v18 (ix4 e b h w)) = ix3 e h w := by
  funext a; match a with | ⟨0, _⟩ => rfl | ⟨1, _⟩ => rfl | ⟨2, _⟩ => rfl

/-- The gathered masks broadcast over the batch axis read, at (e, b, h, w), the gathered masks at (e, h, w). -/
theorem idx1415_eq (e : Fin 32) (b : Fin 4) (h w : Fin 1024) :
    Read.idx_main_v14 (Read.idx_main_v15 (ix4 e b h w)) = ix3 e h w := by
  funext a; match a with | ⟨0, _⟩ => rfl | ⟨1, _⟩ => rfl | ⟨2, _⟩ => rfl

/-- Update element (e, b, h, w) is edge e's signal at (b, h, w), when the source words lie in [0, 8). -/
theorem upd_apply (x0 : (⟨S8x4x1024x1024, .f32⟩ : BufTy).Contents (Elt Ideal)) (x1 : (⟨S8x1024x1024, .f32⟩ : BufTy).Contents (Elt Ideal))
    (x2 : (⟨S32x1024x1024, .f32⟩ : BufTy).Contents (Elt Ideal)) (x3 : (⟨S32, .i32⟩ : BufTy).Contents (Elt Ideal))
    (hs : ∀ e : Fin 32, (x3 (ix1 e)).toNat < 8) (e : Fin 32) (b : Fin 4) (h w : Fin 1024) :
    Read.val_main_v19 (F := Ideal) x0 x1 x2 x3 (ix4 e b h w) = Cert.Axon.signal x0 x1 x2 x3 e b h w := by
  have hs5 : ∀ e : Fin 32, (Read.val_main_v5 (F := Ideal) x3 (ix2 e (0 : Fin 1))).toNat < 8 := fun e => by
    rw [src_word5 x3 e (hs e)]; exact hs e
  have hs12 : ∀ e : Fin 32, (Read.val_main_v12 (F := Ideal) x3 (ix2 e (0 : Fin 1))).toNat < 8 := fun e => by
    rw [src_word12 x3 e (hs e)]; exact hs e
  rw [Read.val_main_v19_apply, Read.val_main_v16_apply, Ideal.mulf_def, Ideal.mulf_def]
  rw [Read.val_main_v18_apply, Read.val_main_v17_apply, idx1718_eq, Read.val_main_v15_apply, Read.val_main_v14_apply,
    idx1415_eq]
  unfold Read.val_main_v6 Read.val_main_v13
  rw [RefGather.gather_spikes_apply _ _ hs5, RefGather.gather_masks_apply _ _ hs12]
  show x0 (ix4 (Cert.Axon.node (Read.val_main_v5 (F := Ideal) x3 (ix2 e (0 : Fin 1)))) b h w)
      * x1 (ix3 (Cert.Axon.node (Read.val_main_v12 (F := Ideal) x3 (ix2 e (0 : Fin 1)))) h w) * x2 (ix3 e h w) = _
  rw [src_word5 x3 e (hs e), src_word12 x3 e (hs e)]
  rfl

/-- The reference's last stage is the edge sums of its arguments, when the tables' words lie in [0, 8). -/
theorem result_eq (x0 : (⟨S8x4x1024x1024, .f32⟩ : BufTy).Contents (Elt Ideal)) (x1 : (⟨S8x1024x1024, .f32⟩ : BufTy).Contents (Elt Ideal))
    (x2 : (⟨S32x1024x1024, .f32⟩ : BufTy).Contents (Elt Ideal)) (x3 x4 : (⟨S32, .i32⟩ : BufTy).Contents (Elt Ideal))
    (hr : Cert.Axon.InRange x3 x4) :
    Cert.ReferenceIdeal.Read.val_main_v22 (F := Ideal) x0 x1 x2 x3 x4 = Cert.Axon.G x0 x1 x2 x3 x4 := by
  have hs : ∀ e : Fin 32, (x3 (ix1 e)).toNat < 8 := fun e => (hr e).1
  have hd : ∀ e : Fin 32, (Read.val_main_v21 (F := Ideal) x4 (ix2 e (0 : Fin 1))).toNat < 8 := fun e => by
    rw [dst_word]; exact (hr e).2
  funext i
  unfold Read.val_main_v22 Host.scatterAdd
  rw [Ideal.hostScatterAdd_def, RefScatter.scatterAdd_apply _ _ _ hd i]
  rw [Read.val_main_v20_apply, Read.val_main_cst_apply, Ideal.ofBits_def, Ideal.ofBits_zero_f32, zero_add]
  unfold Cert.Axon.G
  refine Finset.sum_congr rfl (fun e _ => ?_)
  rw [dst_word]
  split_ifs with hc
  · exact upd_apply x0 x1 x2 x3 hs e (i 1) (i 2) (i 3)
  · rfl

end Cert.ReferenceIdeal.RefValue

end
-- ==== Proof.lean ====
/-
  The certificate of the edge-sum kernel against its reference.

  Both programs compute, from spikes [8, 4, 1024, 1024], masks [8, 1024, 1024], weights [32, 1024, 1024] and two tables
  of 32 words (an edge's source node and destination node), the array whose entry (n, b, h, w) is the sum over the
  edges e with dst[e] = n of spikes[src e, b, h, w] · masks[src e, h, w] · weights[e, h, w]. The kernel keeps the
  products spikes · masks and an accumulator in scratch memory and walks the edges in order, adding each edge's
  term to the accumulator slab of its destination node; the reference gathers, multiplies and scatter-adds. Over the
  extended reals the two results are the same finite sums: only commutativity and associativity of + are used, so
  the finiteness of the float inputs is never opened.

  The precondition also says every table word lies in [0, 8), the indices of the 8-node axis the words index (a word
  outside it is not an index of that axis: the reference reads it wrapped or clamped, or drops the edge, and the
  kernel's scratch slab at such a word does not exist); inside that range the conditions the kernel's frame asks of
  the words it reads all hold.
-/
import proofs.«415922_j3796751089943_1_alg».proof.Defs
import proofs.«415922_j3796751089943_1_alg».proof.Proof.Gen.Kernel
import proofs.«415922_j3796751089943_1_alg».proof.Proof.Gen.Kernel.Frame
import proofs.«415922_j3796751089943_1_alg».proof.Proof.Gen.KernelIdeal
import proofs.«415922_j3796751089943_1_alg».proof.Proof.Gen.KernelIdeal.Frame
import proofs.«415922_j3796751089943_1_alg».proof.Proof.Gen.ReferenceIdeal
import proofs.«415922_j3796751089943_1_alg».proof.Proof.Gen.ReferenceIdeal.Run
import proofs.«415922_j3796751089943_1_alg».proof.Proof.Gen.ReferenceIdeal.Read
import proofs.«415922_j3796751089943_1_alg».proof.Proof.Gen.Pre_finite_inputs
import proofs.«415922_j3796751089943_1_alg».proof.Proof.Spec
import proofs.«415922_j3796751089943_1_alg».proof.Proof.IndexRange
import proofs.«415922_j3796751089943_1_alg».proof.Proof.TableRangeKernel
import proofs.«415922_j3796751089943_1_alg».proof.Proof.TableRangeKernelIdeal
import proofs.«415922_j3796751089943_1_alg».proof.Proof.KernelArray
import proofs.«415922_j3796751089943_1_alg».proof.Proof.RefValue
import Idealize.ShloMosaic.Adequacy
import Idealize.ShloMosaic.Init

noncomputable section

namespace Cert.Proof

open Idealize.ShloMosaic Idealize.SL.Sem

/-- The word-level kernel runs and keeps its arguments: its frame, the tables' words being in range. -/
theorem frame_kernel : Cert.frame_Kernel := fun m ρ h =>
  Cert.Kernel.Gen.frame m ρ (Cert.Kernel.TableRange.ok m)
    (Cert.Kernel.TableRange.hyps m _ (Cert.Axon.inRange_of_pre _ _ _ _ _ (h 0)))

/-- The same for the idealized kernel. -/
theorem frame_kernelIdeal : Cert.frame_KernelIdeal := fun m ρ h =>
  Cert.KernelIdeal.Gen.frame m ρ (Cert.KernelIdeal.TableRange.ok m)
    (Cert.KernelIdeal.TableRange.hyps m _ (Cert.Axon.inRange_of_pre _ _ _ _ _ (h 0)))

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the edge sums of the (agreeing) arguments. -/
theorem algebraic : Cert.algebraic_KernelIdeal_ReferenceIdeal := by
  intro m ρ m' ρ' hpre hagree
  have hr := fun c => Cert.Axon.inRange_of_pre _ _ _ _ _ (hpre c)
  refine ⟨fun c => Cert.Axon.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.ArrayValue.run m ρ (Cert.KernelIdeal.TableRange.ok m) (Cert.KernelIdeal.TableRange.hyps m _ (hr 0)) (hr 0), ?_⟩
  refine (θ_run Cert.ReferenceIdeal.defs _ _).mono (fun _ h c => ⟨(h c).1.trans ?_, (h c).2⟩)
    (Cert.ReferenceIdeal.Value.run (F := Ideal) m' ρ')
  have hr' : Cert.Axon.InRange (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) := by
    rw [(hagree c).2.2.2.1, (hagree c).2.2.2.2]; exact hr c
  rw [Cert.ReferenceIdeal.Read.val_main_v22_eq, Cert.ReferenceIdeal.RefValue.result_eq _ _ _ _ _ hr',
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
